-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x8 : Shape := ⟨2, ![192, 8]⟩
abbrev S8 : Shape := ⟨1, ![8]⟩
abbrev S384x1 : Shape := ⟨2, ![384, 1]⟩
abbrev S1 : Shape := ⟨1, ![1]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_
  bcast_S_S384x192 : S_.BroadcastsInDim S384x192 (![] : Fin 0 → Fin S384x192.rank)
  reducesTo_S384x192_S_d0_1 : S384x192.ReducesTo [0, 1] S_
  bcast_S_S192 : S_.BroadcastsInDim S192 (![] : Fin 0 → Fin S192.rank)
  reducesTo_S192_S_d0 : S192.ReducesTo [0] S_
  bcast_S_S192x8 : S_.BroadcastsInDim S192x8 (![] : Fin 0 → Fin S192x8.rank)
  reducesTo_S192x8_S_d0_1 : S192x8.ReducesTo [0, 1] S_
  bcast_S_S8 : S_.BroadcastsInDim S8 (![] : Fin 0 → Fin S8.rank)
  reducesTo_S8_S_d0 : S8.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S768x384 .f32) (main_arg8 : FVec F S384 .f32) (main_arg9 : FVec F S384x1 .f32) (main_arg10 : FVec F S1 .f32) (main_v33 : IVec S_ 1) : IVec S_ 1 :=
  let main_v34 : FVec F S768x384 .f32 := Host.absf main_arg7
  let main_cst_12 : FVec F S_ .f32 := constant S_ .f32 0x7F800000#32
  let main_v35 : FVec F S768x384 .f32 := broadcastInDim S768x384 ![] bcast_S_S768x384 main_cst_12
  let main_v36 : IVec S768x384 1 := cmpf .olt main_v34 main_v35
  let main_c_13 : IVec S_ 1 := constantI S_ 1 1#1
  let main_v37 : IVec S_ 1 := (fun x v => Host.reduce IntOp.andi x v reducesTo_S768x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x1 .f32 := Host.absf main_arg9
  let main_cst_16 : FVec F S_ .f32 := constant S_ .f32 0x7F800000#32
  let main_v45 : FVec F S384x1 .f32 := broadcastInDim S384x1 ![] bcast_S_S384x1 main_cst_16
  let main_v46 : IVec S384x1 1 := cmpf .olt main_v44 main_v45
  let main_c_17 : IVec S_ 1 := constantI S_ 1 1#1
  let main_v47 : IVec S_ 1 := (fun x v => Host.reduce IntOp.andi x v reducesTo_S384x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S192 .f32) (main_arg5 : FVec F S192x8 .f32) (main_arg6 : FVec F S8 .f32) (main_arg7 : FVec F S768x384 .f32) (main_arg8 : FVec F S384 .f32) (main_arg9 : FVec F S384x1 .f32) (main_arg10 : FVec F S1 .f32) (main_v13 : IVec S_ 1) (main_v16 : IVec S384x192 1) : IVec S_ 1 :=
  let main_c_5 : IVec S_ 1 := constantI S_ 1 1#1
  let main_v17 : IVec S_ 1 := (fun x v => Host.reduce IntOp.andi x v reducesTo_S384x192_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x8 .f32 := Host.absf main_arg5
  let main_cst_8 : FVec F S_ .f32 := constant S_ .f32 0x7F800000#32
  let main_v25 : FVec F S192x8 .f32 := broadcastInDim S192x8 ![] bcast_S_S192x8 main_cst_8
  let main_v26 : IVec S192x8 1 := cmpf .olt main_v24 main_v25
  let main_c_9 : IVec S_ 1 := constantI S_ 1 1#1
  let main_v27 : IVec S_ 1 := (fun x v => Host.reduce IntOp.andi x v reducesTo_S192x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x8192x768 .f32) (main_arg1 : FVec F S768x384 .f32) (main_arg2 : FVec F S384 .f32) (main_arg3 : FVec F S384x192 .f32) (main_arg4 : FVec F S192 .f32) (main_arg5 : FVec F S192x8 .f32) (main_arg6 : FVec F S8 .f32) (main_arg7 : FVec F S768x384 .f32) (main_arg8 : FVec F S384 .f32) (main_arg9 : FVec F S384x1 .f32) (main_arg10 : FVec F S1 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x192 .f32 := Host.absf main_arg3
  let main_cst_4 : FVec F S_ .f32 := constant S_ .f32 0x7F800000#32
  let main_v15 : FVec F S384x192 .f32 := broadcastInDim S384x192 ![] bcast_S_S384x192 main_cst_4
  let main_v16 : IVec S384x192 1 := cmpf .olt main_v14 main_v15
  fn_part1 (F := F) main_arg4 main_arg5 main_arg6 main_arg7 main_arg8 main_arg9 main_arg10 main_v13 main_v16
-- ==== Kernel.lean ====
abbrev S4x8192x768 : Shape := ⟨3, ![4, 8192, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x8 : Shape := ⟨2, ![192, 8]⟩
abbrev S8 : Shape := ⟨1, ![8]⟩
abbrev S384x1 : Shape := ⟨2, ![384, 1]⟩
abbrev S1 : Shape := ⟨1, ![1]⟩
abbrev S192x384 : Shape := ⟨2, ![192, 384]⟩
abbrev S1x192 : Shape := ⟨2, ![1, 192]⟩
abbrev S8x192 : Shape := ⟨2, ![8, 192]⟩
abbrev S1x8 : Shape := ⟨2, ![1, 8]⟩
abbrev S1x384 : Shape := ⟨2, ![1, 384]⟩
abbrev S1x1 : Shape := ⟨2, ![1, 1]⟩
abbrev S4x8x8192 : Shape := ⟨3, ![4, 8, 8192]⟩
abbrev S4x1x8192 : Shape := ⟨3, ![4, 1, 8192]⟩
abbrev S1x2048x768 : Shape := ⟨3, ![1, 2048, 768]⟩
abbrev S1x8x2048 : Shape := ⟨3, ![1, 8, 2048]⟩
abbrev S1x1x2048 : Shape := ⟨3, ![1, 1, 2048]⟩
abbrev S768x768 : Shape := ⟨2, ![768, 768]⟩
abbrev S1x768 : Shape := ⟨2, ![1, 768]⟩
abbrev S2048x768 : Shape := ⟨2, ![2048, 768]⟩
abbrev S2048x384 : Shape := ⟨2, ![2048, 384]⟩
abbrev S2048x192 : Shape := ⟨2, ![2048, 192]⟩
abbrev S8x2048 : Shape := ⟨2, ![8, 2048]⟩
abbrev S8x1 : Shape := ⟨2, ![8, 1]⟩
abbrev S1x2048 : Shape := ⟨2, ![1, 2048]⟩
abbrev S4x8192x8 : Shape := ⟨3, ![4, 8192, 8]⟩
abbrev S4x8192x1 : Shape := ⟨3, ![4, 8192, 1]⟩

abbrev nBuf : Space → Nat
  | .hbm => 21
  | .vmem => 18
  | .smem => 0
  | _ => 0

abbrev bufTy : (tb : Table) → Fin (tcTables nBuf tb) → BufTy
  | .hbm, ⟨0, _⟩ => ⟨S4x8192x768, .f32⟩
  | .hbm, ⟨1, _⟩ => ⟨S768x384, .f32⟩
  | .hbm, ⟨2, _⟩ => ⟨S384, .f32⟩
  | .hbm, ⟨3, _⟩ => ⟨S384x192, .f32⟩
  | .hbm, ⟨4, _⟩ => ⟨S192, .f32⟩
  | .hbm, ⟨5, _⟩ => ⟨S192x8, .f32⟩
  | .hbm, ⟨6, _⟩ => ⟨S8, .f32⟩
  | .hbm, ⟨7, _⟩ => ⟨S768x384, .f32⟩
  | .hbm, ⟨8, _⟩ => ⟨S384, .f32⟩
  | .hbm, ⟨9, _⟩ => ⟨S384x1, .f32⟩
  | .hbm, ⟨10, _⟩ => ⟨S1, .f32⟩
  | .hbm, ⟨11, _⟩ => ⟨S192x384, .f32⟩
  | .hbm, ⟨12, _⟩ => ⟨S1x192, .f32⟩
  | .hbm, ⟨13, _⟩ => ⟨S8x192, .f32⟩
  | .hbm, ⟨14, _⟩ => ⟨S1x8, .f32⟩
  | .hbm, ⟨15, _⟩ => ⟨S1x384, .f32⟩
  | .hbm, ⟨16, _⟩ => ⟨S1x1, .f32⟩
  | .hbm, ⟨17, _⟩ => ⟨S4x8x8192, .f32⟩
  | .hbm, ⟨18, _⟩ => ⟨S4x1x8192, .f32⟩
  | .hbm, ⟨19, _⟩ => ⟨S4x8192x8, .f32⟩
  | .hbm, ⟨20, _⟩ => ⟨S4x8192x1, .f32⟩
  | .local _ .vmem, ⟨0, _⟩ => ⟨S1x2048x768, .f32⟩
  | .local _ .vmem, ⟨1, _⟩ => ⟨S1x2048x768, .f32⟩
  | .local _ .vmem, ⟨2, _⟩ => ⟨S768x384, .f32⟩
  | .local _ .vmem, ⟨3, _⟩ => ⟨S384, .f32⟩
  | .local _ .vmem, ⟨4, _⟩ => ⟨S768x384, .f32⟩
  | .local _ .vmem, ⟨5, _⟩ => ⟨S384, .f32⟩
  | .local _ .vmem, ⟨6, _⟩ => ⟨S192x384, .f32⟩
  | .local _ .vmem, ⟨7, _⟩ => ⟨S1x192, .f32⟩
  | .local _ .vmem, ⟨8, _⟩ => ⟨S8x192, .f32⟩
  | .local _ .vmem, ⟨9, _⟩ => ⟨S1x8, .f32⟩
  | .local _ .vmem, ⟨10, _⟩ => ⟨S1x384, .f32⟩
  | .local _ .vmem, ⟨11, _⟩ => ⟨S1x1, .f32⟩
  | .local _ .vmem, ⟨12, _⟩ => ⟨S1x8x2048, .f32⟩
  | .local _ .vmem, ⟨13, _⟩ => ⟨S1x8x2048, .f32⟩
  | .local _ .vmem, ⟨14, _⟩ => ⟨S1x1x2048, .f32⟩
  | .local _ .vmem, ⟨15, _⟩ => ⟨S1x1x2048, .f32⟩
  | .local _ .vmem, ⟨16, _⟩ => ⟨S768x768, .f32⟩
  | .local _ .vmem, ⟨17, _⟩ => ⟨S1x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S384x192_S192x384_1_0 : S384x192.Transposes [1, 0] S192x384
  shapeCasts_S192_S1x192 : S192.ShapeCasts S1x192
  transposes_S192x8_S8x192_1_0 : S192x8.Transposes [1, 0] S8x192
  shapeCasts_S8_S1x8 : S8.ShapeCasts S1x8
  transposes_S384x1_S1x384_1_0 : S384x1.Transposes [1, 0] S1x384
  shapeCasts_S1_S1x1 : S1.ShapeCasts S1x1
  inb_S768x384_S768x384_0_0 : ∀ a, (![0, 0] : Fin 2 → Nat) a + S768x384.size a ≤ S768x384.size a
  h_S768x384 : 0 < S768x384.numel
  inb_S768x768_S768x384_0_0 : ∀ a, (![0, 0] : Fin 2 → Nat) a + S768x384.size a ≤ S768x768.size a
  shapeCasts_S768x384_S768x384 : S768x384.ShapeCasts S768x384
  inb_S768x768_S768x384_0_384 : ∀ a, (![0, 384] : Fin 2 → Nat) a + S768x384.size a ≤ S768x768.size a
  inb_S384_S384_0 : ∀ a, (![0] : Fin 1 → Nat) a + S384.size a ≤ S384.size a
  h_S384 : 0 < S384.numel
  inb_S1x768_S1x384_0_0 : ∀ a, (![0, 0] : Fin 2 → Nat) a + S1x384.size a ≤ S1x768.size a
  h_S1x384 : 0 < S1x384.numel
  shapeCasts_S1x384_S384 : S1x384.ShapeCasts S384
  shapeCasts_S384_S1x384 : S384.ShapeCasts S1x384
  inb_S1x768_S1x384_0_384 : ∀ a, (![0, 384] : Fin 2 → Nat) a + S1x384.size a ≤ S1x768.size a
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  broadcasts_S1x768_S2048x768 : S1x768.Broadcasts S2048x768
  bitsLt_bf16_f32 : FTy.bits .bf16 < FTy.bits .f32
  slices_S2048x768_o0_0_S2048x384 : S2048x768.Slices ![0, 0] S2048x384
  slices_S2048x768_o0_384_S2048x384 : S2048x768.Slices ![0, 384] S2048x384
  inb_S192x384_S192x384_0_0 : ∀ a, (![0, 0] : Fin 2 → Nat) a + S192x384.size a ≤ S192x384.size a
  h_S192x384 : 0 < S192x384.numel
  shapeCasts_S192x384_S192x384 : S192x384.ShapeCasts S192x384
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2048x192 : S1x192.Broadcasts S2048x192
  inb_S8x192_S8x192_0_0 : ∀ a, (![0, 0] : Fin 2 → Nat) a + S8x192.size a ≤ S8x192.size a
  h_S8x192 : 0 < S8x192.numel
  shapeCasts_S8x192_S8x192 : S8x192.ShapeCasts S8x192
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S1x8_p1_0_S8x1 : S1x8.Transposes [1, 0] S8x1
  broadcasts_S8x1_S8x2048 : S8x1.Broadcasts S8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  inb_S1x384_S1x384_0_0 : ∀ a, (![0, 0] : Fin 2 → Nat) a + S1x384.size a ≤ S1x384.size a
  shapeCasts_S1x384_S1x384 : S1x384.ShapeCasts S1x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  transposes_S4x8x8192_S4x8192x8_0_2_1 : S4x8x8192.Transposes [0, 2, 1] S4x8192x8
  transposes_S4x1x8192_S4x8192x1_0_2_1 : S4x1x8192.Transposes [0, 2, 1] S4x8192x1
  dot_S2048x768_S768x768_S2048x768_1_0_0_1_n_n_wf : DotDims.WF S2048x768 S768x768 S2048x768 [1] [0] [0] [1] [] []
  dot_S2048x384_S192x384_S2048x192_1_1_0_0_n_n_wf : DotDims.WF S2048x384 S192x384 S2048x192 [1] [1] [0] [0] [] []
  dot_S8x192_S2048x192_S8x2048_1_1_0_0_n_n_wf : DotDims.WF S8x192 S2048x192 S8x2048 [1] [1] [0] [0] [] []
  dot_S1x384_S2048x384_S1x2048_1_1_0_0_n_n_wf : DotDims.WF S1x384 S2048x384 S1x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x8192x768.size a
  hwx0_0 : ∀ i : grid0.Coords, EltTy.bits .f32 = 32 ∨ (Rect.block (s := S4x8192x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x384.size a ≤ S192x384.size a
  hwx0_5 : ∀ i : grid0.Coords, EltTy.bits .f32 = 32 ∨ (Rect.block (s := S192x384) S192x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x192.size a ≤ S8x192.size a
  hwx0_7 : ∀ i : grid0.Coords, EltTy.bits .f32 = 32 ∨ (Rect.block (s := S8x192) S8x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x2048.size a ≤ S4x8x8192.size a
  hwx0_11 : ∀ i : grid0.Coords, EltTy.bits .f32 = 32 ∨ (Rect.block (s := S4x8x8192) S1x8x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x2048.size a ≤ S4x1x8192.size a
  hwx0_12 : ∀ i : grid0.Coords, EltTy.bits .f32 = 32 ∨ (Rect.block (s := S4x1x8192) S1x1x2048.size (cc0_transform_12 i) (hinb0_12 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x384_S192x384_S2048x192_1_1_0_0_n_n : DotDims S2048x384 S192x384 S2048x192 where
  lhsContracting := [1]
  rhsContracting := [1]
  lhsNonContracting := [0]
  rhsNonContracting := [0]
  lhsBatch := []
  rhsBatch := []
  wf := dot_S2048x384_S192x384_S2048x192_1_1_0_0_n_n_wf
def dot_S8x192_S2048x192_S8x2048_1_1_0_0_n_n : DotDims S8x192 S2048x192 S8x2048 where
  lhsContracting := [1]
  rhsContracting := [1]
  lhsNonContracting := [0]
  rhsNonContracting := [0]
  lhsBatch := []
  rhsBatch := []
  wf := dot_S8x192_S2048x192_S8x2048_1_1_0_0_n_n_wf
def dot_S1x384_S2048x384_S1x2048_1_1_0_0_n_n : DotDims S1x384 S2048x384 S1x2048 where
  lhsContracting := [1]
  rhsContracting := [1]
  lhsNonContracting := [0]
  rhsNonContracting := [0]
  lhsBatch := []
  rhsBatch := []
  wf := dot_S1x384_S2048x384_S1x2048_1_1_0_0_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S192x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S8x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S1x8x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S1x1x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x384 : Shape := ⟨2, ![768, 384]⟩
abbrev S384 : Shape := ⟨1, ![384]⟩
abbrev S384x192 : Shape := ⟨2, ![384, 192]⟩
abbrev S192 : Shape := ⟨1, ![192]⟩
abbrev S192x8 : Shape := ⟨2, ![192, 8]⟩
abbrev S8 : Shape := ⟨1, ![8]⟩
abbrev S384x1 : Shape := ⟨2, ![384, 1]⟩
abbrev S1 : Shape := ⟨1, ![1]⟩
abbrev S32768x768 : Shape := ⟨2, ![32768, 768]⟩
abbrev S32768x384 : Shape := ⟨2, ![32768, 384]⟩
abbrev S1x384 : Shape := ⟨2, ![1, 384]⟩
abbrev S_ : Shape := ⟨0, ![]⟩
abbrev S32768x192 : Shape := ⟨2, ![32768, 192]⟩
abbrev S1x192 : Shape := ⟨2, ![1, 192]⟩
abbrev S32768x8 : Shape := ⟨2, ![32768, 8]⟩
abbrev S1x8 : Shape := ⟨2, ![1, 8]⟩
abbrev S32768x1 : Shape := ⟨2, ![32768, 1]⟩
abbrev S1x1 : Shape := ⟨2, ![1, 1]⟩
abbrev S4x8192x8 : Shape := ⟨3, ![4, 8192, 8]⟩
abbrev S4x8192x1 : Shape := ⟨3, ![4, 8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x384, .f32⟩
  | .hbm, ⟨2, _⟩ => ⟨S384, .f32⟩
  | .hbm, ⟨3, _⟩ => ⟨S384x192, .f32⟩
  | .hbm, ⟨4, _⟩ => ⟨S192, .f32⟩
  | .hbm, ⟨5, _⟩ => ⟨S192x8, .f32⟩
  | .hbm, ⟨6, _⟩ => ⟨S8, .f32⟩
  | .hbm, ⟨7, _⟩ => ⟨S768x384, .f32⟩
  | .hbm, ⟨8, _⟩ => ⟨S384, .f32⟩
  | .hbm, ⟨9, _⟩ => ⟨S384x1, .f32⟩
  | .hbm, ⟨10, _⟩ => ⟨S1, .f32⟩
  | .hbm, ⟨11, _⟩ => ⟨S32768x768, .f32⟩
  | .hbm, ⟨12, _⟩ => ⟨S32768x384, .f32⟩
  | .hbm, ⟨13, _⟩ => ⟨S1x384, .f32⟩
  | .hbm, ⟨14, _⟩ => ⟨S32768x384, .f32⟩
  | .hbm, ⟨15, _⟩ => ⟨S32768x384, .f32⟩
  | .hbm, ⟨16, _⟩ => ⟨S_, .f32⟩
  | .hbm, ⟨17, _⟩ => ⟨S32768x384, .f32⟩
  | .hbm, ⟨18, _⟩ => ⟨S32768x384, .f32⟩
  | .hbm, ⟨19, _⟩ => ⟨S32768x192, .f32⟩
  | .hbm, ⟨20, _⟩ => ⟨S1x192, .f32⟩
  | .hbm, ⟨21, _⟩ => ⟨S32768x192, .f32⟩
  | .hbm, ⟨22, _⟩ => ⟨S32768x192, .f32⟩
  | .hbm, ⟨23, _⟩ => ⟨S_, .f32⟩
  | .hbm, ⟨24, _⟩ => ⟨S32768x192, .f32⟩
  | .hbm, ⟨25, _⟩ => ⟨S32768x192, .f32⟩
  | .hbm, ⟨26, _⟩ => ⟨S32768x8, .f32⟩
  | .hbm, ⟨27, _⟩ => ⟨S1x8, .f32⟩
  | .hbm, ⟨28, _⟩ => ⟨S32768x8, .f32⟩
  | .hbm, ⟨29, _⟩ => ⟨S32768x8, .f32⟩
  | .hbm, ⟨30, _⟩ => ⟨S_, .f32⟩
  | .hbm, ⟨31, _⟩ => ⟨S32768x8, .f32⟩
  | .hbm, ⟨32, _⟩ => ⟨S32768x8, .f32⟩
  | .hbm, ⟨33, _⟩ => ⟨S32768x384, .f32⟩
  | .hbm, ⟨34, _⟩ => ⟨S1x384, .f32⟩
  | .hbm, ⟨35, _⟩ => ⟨S32768x384, .f32⟩
  | .hbm, ⟨36, _⟩ => ⟨S32768x384, .f32⟩
  | .hbm, ⟨37, _⟩ => ⟨S_, .f32⟩
  | .hbm, ⟨38, _⟩ => ⟨S32768x384, .f32⟩
  | .hbm, ⟨39, _⟩ => ⟨S32768x384, .f32⟩
  | .hbm, ⟨40, _⟩ => ⟨S32768x1, .f32⟩
  | .hbm, ⟨41, _⟩ => ⟨S1x1, .f32⟩
  | .hbm, ⟨42, _⟩ => ⟨S32768x1, .f32⟩
  | .hbm, ⟨43, _⟩ => ⟨S32768x1, .f32⟩
  | .hbm, ⟨44, _⟩ => ⟨S4x8192x8, .f32⟩
  | .hbm, ⟨45, _⟩ => ⟨S4x8192x1, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  shapeCasts_S4x8192x768_S32768x768 : S4x8192x768.ShapeCasts S32768x768
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  bcast_S_S32768x384 : S_.BroadcastsInDim S32768x384 (![] : Fin 0 → Fin S32768x384.rank)
  bcast_S192_S1x192_1 : S192.BroadcastsInDim S1x192 (![1] : Fin 1 → Fin S1x192.rank)
  bcast_S1x192_S32768x192_0_1 : S1x192.BroadcastsInDim S32768x192 (![0, 1] : Fin 2 → Fin S32768x192.rank)
  bcast_S_S32768x192 : S_.BroadcastsInDim S32768x192 (![] : Fin 0 → Fin S32768x192.rank)
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S_S32768x8 : S_.BroadcastsInDim S32768x8 (![] : Fin 0 → Fin S32768x8.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x8_S4x8192x8 : S32768x8.ShapeCasts S4x8192x8
  shapeCasts_S32768x1_S4x8192x1 : S32768x1.ShapeCasts S4x8192x1
  dot_S32768x768_S768x384_S32768x384_1_0_0_1_n_n_wf : DotDims.WF S32768x768 S768x384 S32768x384 [1] [0] [0] [1] [] []
  dot_S32768x384_S384x192_S32768x192_1_0_0_1_n_n_wf : DotDims.WF S32768x384 S384x192 S32768x192 [1] [0] [0] [1] [] []
  dot_S32768x192_S192x8_S32768x8_1_0_0_1_n_n_wf : DotDims.WF S32768x192 S192x8 S32768x8 [1] [0] [0] [1] [] []
  dot_S32768x384_S384x1_S32768x1_1_0_0_1_n_n_wf : DotDims.WF S32768x384 S384x1 S32768x1 [1] [0] [0] [1] [] []

variable [Facts₀]

def dot_S32768x768_S768x384_S32768x384_1_0_0_1_n_n : DotDims S32768x768 S768x384 S32768x384 where
  lhsContracting := [1]
  rhsContracting := [0]
  lhsNonContracting := [0]
  rhsNonContracting := [1]
  lhsBatch := []
  rhsBatch := []
  wf := dot_S32768x768_S768x384_S32768x384_1_0_0_1_n_n_wf
def dot_S32768x384_S384x192_S32768x192_1_0_0_1_n_n : DotDims S32768x384 S384x192 S32768x192 where
  lhsContracting := [1]
  rhsContracting := [0]
  lhsNonContracting := [0]
  rhsNonContracting := [1]
  lhsBatch := []
  rhsBatch := []
  wf := dot_S32768x384_S384x192_S32768x192_1_0_0_1_n_n_wf
def dot_S32768x192_S192x8_S32768x8_1_0_0_1_n_n : DotDims S32768x192 S192x8 S32768x8 where
  lhsContracting := [1]
  rhsContracting := [0]
  lhsNonContracting := [0]
  rhsNonContracting := [1]
  lhsBatch := []
  rhsBatch := []
  wf := dot_S32768x192_S192x8_S32768x8_1_0_0_1_n_n_wf
def dot_S32768x384_S384x1_S32768x1_1_0_0_1_n_n : DotDims S32768x384 S384x1 S32768x1 where
  lhsContracting := [1]
  rhsContracting := [0]
  lhsNonContracting := [0]
  rhsNonContracting := [1]
  lhsBatch := []
  rhsBatch := []
  wf := dot_S32768x384_S384x1_S32768x1_1_0_0_1_n_n_wf

class Facts : Prop extends Facts₀ where

variable [Facts]
-- ==== Proof.Spec.lean ====
/-
  What the router computes, as mathematics over the extended reals, index by index.

  A token is a row of 768 features. Two heads read it:
    * the router head: two dense layers with a rectifier each (768 → 384 → 192), then a dense layer to
      8 logits;
    * the value head: one dense layer with a rectifier (768 → 384), then a dense layer to one number.
  A dense layer's output at feature `j` is the sum over the input features `k` of input × weight, plus the
  bias at `j`; the rectifier is the maximum with the float zero.
-/
import Idealize.ShloMosaic.PureOps.Ideal
import Idealize.ShloMosaic.PureOps.Ideal.Laws
import Idealize.ShloMosaic.Lib.ValueIdx

noncomputable section

namespace Cert.RouterSpec

open Idealize.ShloMosaic Idealize.ShloMosaic.ValueIdx

/-- The float zero the rectifiers compare against, kept as its word. -/
abbrev z : EReal := Ideal.ofBits .f32 0x00000000#32

/-- First layer of either head at token `(p, s)` and feature `j`: `max (∑ₖ X[p,s,k]·W[k,j] + b[j]) 0`. -/
def hid (X : (⟨3, ![4, 8192, 768]⟩ : Shape).Idx → EReal) (W : (⟨2, ![768, 384]⟩ : Shape).Idx → EReal)
    (b : (⟨1, ![384]⟩ : Shape).Idx → EReal) (p : Fin 4) (s : Fin 8192) (j : Fin 384) : EReal :=
  max ((∑ k : Fin 768, X (ix3 p s k) * W (ix2 k j)) + b (ix1 j)) z

/-- Second layer of the router head at token `(p, s)` and feature `j`. -/
def hid2 (X : (⟨3, ![4, 8192, 768]⟩ : Shape).Idx → EReal) (W1 : (⟨2, ![768, 384]⟩ : Shape).Idx → EReal)
    (b1 : (⟨1, ![384]⟩ : Shape).Idx → EReal) (W2 : (⟨2, ![384, 192]⟩ : Shape).Idx → EReal)
    (b2 : (⟨1, ![192]⟩ : Shape).Idx → EReal) (p : Fin 4) (s : Fin 8192) (j : Fin 192) : EReal :=
  max ((∑ k : Fin 384, hid X W1 b1 p s k * W2 (ix2 k j)) + b2 (ix1 j)) z

/-- The router's logit of expert `e` at token `(p, s)`. -/
def logitAt (X : (⟨3, ![4, 8192, 768]⟩ : Shape).Idx → EReal) (W1 : (⟨2, ![768, 384]⟩ : Shape).Idx → EReal)
    (b1 : (⟨1, ![384]⟩ : Shape).Idx → EReal) (W2 : (⟨2, ![384, 192]⟩ : Shape).Idx → EReal)
    (b2 : (⟨1, ![192]⟩ : Shape).Idx → EReal) (W3 : (⟨2, ![192, 8]⟩ : Shape).Idx → EReal)
    (b3 : (⟨1, ![8]⟩ : Shape).Idx → EReal) (p : Fin 4) (s : Fin 8192) (e : Fin 8) : EReal :=
  (∑ k : Fin 192, hid2 X W1 b1 W2 b2 p s k * W3 (ix2 k e)) + b3 (ix1 e)

/-- The value head's output at token `(p, s)` (its last axis has the one coordinate `e`). -/
def valueAt (X : (⟨3, ![4, 8192, 768]⟩ : Shape).Idx → EReal) (Wv1 : (⟨2, ![768, 384]⟩ : Shape).Idx → EReal)
    (bv1 : (⟨1, ![384]⟩ : Shape).Idx → EReal) (Wv2 : (⟨2, ![384, 1]⟩ : Shape).Idx → EReal)
    (bv2 : (⟨1, ![1]⟩ : Shape).Idx → EReal) (p : Fin 4) (s : Fin 8192) (e : Fin 1) : EReal :=
  (∑ k : Fin 384, hid X Wv1 bv1 p s k * Wv2 (ix2 k e)) + bv2 (ix1 e)

/-- The logits as one array over `[4, 8192, 8]`. -/
def logits (X : (⟨3, ![4, 8192, 768]⟩ : Shape).Idx → EReal) (W1 : (⟨2, ![768, 384]⟩ : Shape).Idx → EReal)
    (b1 : (⟨1, ![384]⟩ : Shape).Idx → EReal) (W2 : (⟨2, ![384, 192]⟩ : Shape).Idx → EReal)
    (b2 : (⟨1, ![192]⟩ : Shape).Idx → EReal) (W3 : (⟨2, ![192, 8]⟩ : Shape).Idx → EReal)
    (b3 : (⟨1, ![8]⟩ : Shape).Idx → EReal) : (⟨3, ![4, 8192, 8]⟩ : Shape).Idx → EReal :=
  fun i => logitAt X W1 b1 W2 b2 W3 b3 (i 0) (i 1) (i 2)

/-- The values as one array over `[4, 8192, 1]`. -/
def values (X : (⟨3, ![4, 8192, 768]⟩ : Shape).Idx → EReal) (Wv1 : (⟨2, ![768, 384]⟩ : Shape).Idx → EReal)
    (bv1 : (⟨1, ![384]⟩ : Shape).Idx → EReal) (Wv2 : (⟨2, ![384, 1]⟩ : Shape).Idx → EReal)
    (bv2 : (⟨1, ![1]⟩ : Shape).Idx → EReal) : (⟨3, ![4, 8192, 1]⟩ : Shape).Idx → EReal :=
  fun i => valueAt X Wv1 bv1 Wv2 bv2 (i 0) (i 1) (i 2)

theorem logits_ix3 (X : (⟨3, ![4, 8192, 768]⟩ : Shape).Idx → EReal) (W1 : (⟨2, ![768, 384]⟩ : Shape).Idx → EReal)
    (b1 : (⟨1, ![384]⟩ : Shape).Idx → EReal) (W2 : (⟨2, ![384, 192]⟩ : Shape).Idx → EReal)
    (b2 : (⟨1, ![192]⟩ : Shape).Idx → EReal) (W3 : (⟨2, ![192, 8]⟩ : Shape).Idx → EReal)
    (b3 : (⟨1, ![8]⟩ : Shape).Idx → EReal) (p : Fin 4) (s : Fin 8192) (e : Fin 8) :
    logits X W1 b1 W2 b2 W3 b3 (ix3 p s e) = logitAt X W1 b1 W2 b2 W3 b3 p s e := rfl

theorem values_ix3 (X : (⟨3, ![4, 8192, 768]⟩ : Shape).Idx → EReal) (Wv1 : (⟨2, ![768, 384]⟩ : Shape).Idx → EReal)
    (bv1 : (⟨1, ![384]⟩ : Shape).Idx → EReal) (Wv2 : (⟨2, ![384, 1]⟩ : Shape).Idx → EReal)
    (bv2 : (⟨1, ![1]⟩ : Shape).Idx → EReal) (p : Fin 4) (s : Fin 8192) (e : Fin 1) :
    values X Wv1 bv1 Wv2 bv2 (ix3 p s e) = valueAt X Wv1 bv1 Wv2 bv2 p s e := rfl

/-- Dividing by the float one changes no extended real (the reference divides its logits by a temperature of one). -/
theorem div_one_word (x : EReal) : Ideal.div x (Ideal.ofBits .f32 0x3F800000#32) = x := by
  have h1 : Ideal.ofBits .f32 0x3F800000#32 = 1 := by
    simp [Ideal.ofBits, Ideal.ieee, -EReal.coe_mul]; norm_num
  rw [h1, ← EReal.coe_one, Ideal.div_coe (by norm_num : (1 : ℝ) ≠ 0)]
  simp

end Cert.RouterSpec

end
-- ==== Proof.RefIsSpec.lean ====
/-
  The reference program computes the router's specification.

  The reference flattens the tokens: it reshapes the input `[4, 8192, 768]` to `[32768, 768]`, where token
  `(p, s)` is row `p * 8192 + s`, runs each head as dense layers on the flat rows (a matrix product, a bias
  broadcast along the rows, a maximum with a broadcast zero), divides the router's logits by the float one, and
  reshapes the two results back to `[4, 8192, 8]` and `[4, 8192, 1]`. Read index by index, every layer at row
  `p * 8192 + s` is the specification's layer at token `(p, s)`.
-/
import proofs.«143033_g7164005449791_retrytranche1_166_45_alg».proof.Proof.Gen.ReferenceIdeal.Read
import proofs.«143033_g7164005449791_retrytranche1_166_45_alg».proof.Proof.Spec
import Idealize.ShloMosaic.Lib.ValueIdx
import Idealize.ShloMosaic.PureOps.Ideal

noncomputable section

namespace Cert.ReferenceIdeal.RefSpec

open Cert.ReferenceIdeal Cert.ReferenceIdeal.Gen Cert.ReferenceIdeal.Read Idealize.ShloMosaic Idealize.ShloMosaic.ValueIdx
open Cert.RouterSpec (hid hid2 logitAt valueAt z)

/-- The flat row of token `(p, s)`. -/
def row (p : Fin 4) (s : Fin 8192) : Fin 32768 := ⟨p.val * 8192 + s.val, by omega⟩

theorem row_val (p : Fin 4) (s : Fin 8192) : (row p s).val = p.val * 8192 + s.val := rfl

/-! ## The reshapes, at coordinates -/

/-- Entry `(p * 8192 + s, k)` of the flattened input is entry `(p, s, k)` of the input. -/
theorem flat_in (p : Fin 4) (s : Fin 8192) (k : Fin 768) :
    idx_main_v0 (ix2 (row p s) k) = ix3 p s k := by
  funext a
  match a with
  | ⟨0, _⟩ =>
    apply Fin.ext
    show ((p.val * 8192 + s.val) * 768 + k.val) / 6291456 = p.val
    omega
  | ⟨1, _⟩ =>
    apply Fin.ext
    show ((p.val * 8192 + s.val) * 768 + k.val) / 768 % 8192 = s.val
    omega
  | ⟨2, _⟩ =>
    apply Fin.ext
    show ((p.val * 8192 + s.val) * 768 + k.val) % 768 = k.val
    omega

/-- Entry `(p, s, e)` of the logits' result is entry `(p * 8192 + s, e)` of the flat logits. -/
theorem flat_out8 (p : Fin 4) (s : Fin 8192) (e : Fin 8) :
    idx_main_v29 (ix3 p s e) = ix2 (row p s) e := by
  funext a
  match a with
  | ⟨0, _⟩ =>
    apply Fin.ext
    show ((p.val * 8192 + s.val) * 8 + e.val) / 8 = p.val * 8192 + s.val
    omega
  | ⟨1, _⟩ =>
    apply Fin.ext
    show ((p.val * 8192 + s.val) * 8 + e.val) % 8 = e.val
    omega

/-- Entry `(p, s, e)` of the values' result is entry `(p * 8192 + s, e)` of the flat values. -/
theorem flat_out1 (p : Fin 4) (s : Fin 8192) (e : Fin 1) :
    idx_main_v30 (ix3 p s e) = ix2 (row p s) e := by
  funext a
  match a with
  | ⟨0, _⟩ =>
    apply Fin.ext
    show ((p.val * 8192 + s.val) * 1 + e.val) / 1 = p.val * 8192 + s.val
    omega
  | ⟨1, _⟩ =>
    apply Fin.ext
    show 0 = e.val
    omega

/-- The flattened input at row `p * 8192 + s`. -/
theorem v0_at (x0 : (⟨S4x8192x768, .f32⟩ : BufTy).Contents (Elt Ideal)) (p : Fin 4) (s : Fin 8192) (k : Fin 768) :
    val_main_v0 (F := Ideal) x0 (ix2 (row p s) k) = x0 (ix3 p s k) := by
  rw [val_main_v0_apply, flat_in]

/-! ## The matrix products' operand indices, at coordinates -/

theorem lidx_v1 (r : Fin 32768) (j : Fin 384) (k : Fin 768) : lidx_main_v1 (ix2 r j) k = ix2 r k := by
  funext a; match a with | ⟨0, _⟩ => rfl | ⟨1, _⟩ => rfl
theorem ridx_v1 (r : Fin 32768) (j : Fin 384) (k : Fin 768) : ridx_main_v1 (ix2 r j) k = ix2 k j := by
  funext a; match a with | ⟨0, _⟩ => rfl | ⟨1, _⟩ => rfl
theorem lidx_v7 (r : Fin 32768) (j : Fin 192) (k : Fin 384) : lidx_main_v7 (ix2 r j) k = ix2 r k := by
  funext a; match a with | ⟨0, _⟩ => rfl | ⟨1, _⟩ => rfl
theorem ridx_v7 (r : Fin 32768) (j : Fin 192) (k : Fin 384) : ridx_main_v7 (ix2 r j) k = ix2 k j := by
  funext a; match a with | ⟨0, _⟩ => rfl | ⟨1, _⟩ => rfl
theorem lidx_v13 (r : Fin 32768) (e : Fin 8) (k : Fin 192) : lidx_main_v13 (ix2 r e) k = ix2 r k := by
  funext a; match a with | ⟨0, _⟩ => rfl | ⟨1, _⟩ => rfl
theorem ridx_v13 (r : Fin 32768) (e : Fin 8) (k : Fin 192) : ridx_main_v13 (ix2 r e) k = ix2 k e := by
  funext a; match a with | ⟨0, _⟩ => rfl | ⟨1, _⟩ => rfl
theorem lidx_v19 (r : Fin 32768) (j : Fin 384) (k : Fin 768) : lidx_main_v19 (ix2 r j) k = ix2 r k := by
  funext a; match a with | ⟨0, _⟩ => rfl | ⟨1, _⟩ => rfl
theorem ridx_v19 (r : Fin 32768) (j : Fin 384) (k : Fin 768) : ridx_main_v19 (ix2 r j) k = ix2 k j := by
  funext a; match a with | ⟨0, _⟩ => rfl | ⟨1, _⟩ => rfl
theorem lidx_v25 (r : Fin 32768) (e : Fin 1) (k : Fin 384) : lidx_main_v25 (ix2 r e) k = ix2 r k := by
  funext a; match a with | ⟨0, _⟩ => rfl | ⟨1, _⟩ => rfl
theorem ridx_v25 (r : Fin 32768) (e : Fin 1) (k : Fin 384) : ridx_main_v25 (ix2 r e) k = ix2 k e := by
  funext a; match a with | ⟨0, _⟩ => rfl | ⟨1, _⟩ => rfl

/-! ## The biases broadcast along the rows, and the broadcast zero and one -/

theorem bias_v3 (x2 : (⟨S384, .f32⟩ : BufTy).Contents (Elt Ideal)) (r : Fin 32768) (j : Fin 384) :
    val_main_v3 (F := Ideal) x2 (ix2 r j) = x2 (ix1 j) := by
  rw [val_main_v3_apply, val_main_v2_apply]
  congr 1
  funext a; match a with | ⟨0, _⟩ => rfl

theorem bias_v9 (x4 : (⟨S192, .f32⟩ : BufTy).Contents (Elt Ideal)) (r : Fin 32768) (j : Fin 192) :
    val_main_v9 (F := Ideal) x4 (ix2 r j) = x4 (ix1 j) := by
  rw [val_main_v9_apply, val_main_v8_apply]
  congr 1
  funext a; match a with | ⟨0, _⟩ => rfl

theorem bias_v15 (x6 : (⟨S8, .f32⟩ : BufTy).Contents (Elt Ideal)) (r : Fin 32768) (e : Fin 8) :
    val_main_v15 (F := Ideal) x6 (ix2 r e) = x6 (ix1 e) := by
  rw [val_main_v15_apply, val_main_v14_apply]
  congr 1
  funext a; match a with | ⟨0, _⟩ => rfl

theorem bias_v21 (x8 : (⟨S384, .f32⟩ : BufTy).Contents (Elt Ideal)) (r : Fin 32768) (j : Fin 384) :
    val_main_v21 (F := Ideal) x8 (ix2 r j) = x8 (ix1 j) := by
  rw [val_main_v21_apply, val_main_v20_apply]
  congr 1
  funext a; match a with | ⟨0, _⟩ => rfl

/-- The value head's bias has one entry; every index of `[1]` is that entry's. -/
theorem bias_v27 (x10 : (⟨S1, .f32⟩ : BufTy).Contents (Elt Ideal)) (r : Fin 32768) (e : Fin 1) :
    val_main_v27 (F := Ideal) x10 (ix2 r e) = x10 (ix1 e) := by
  rw [val_main_v27_apply, val_main_v26_apply]
  congr 1
  funext a
  match a with
  | ⟨0, _⟩ =>
    apply Fin.ext
    show 0 = e.val
    omega

theorem zero_v5 (i : S32768x384.Idx) : val_main_v5 (F := Ideal) i = z := by
  rw [val_main_v5_apply, val_main_cst_apply]; rfl
theorem zero_v11 (i : S32768x192.Idx) : val_main_v11 (F := Ideal) i = z := by
  rw [val_main_v11_apply, val_main_cst_0_apply]; rfl
theorem zero_v23 (i : S32768x384.Idx) : val_main_v23 (F := Ideal) i = z := by
  rw [val_main_v23_apply, val_main_cst_2_apply]; rfl
theorem one_v17 (i : S32768x8.Idx) : val_main_v17 (F := Ideal) i = Ideal.ofBits .f32 0x3F800000#32 := by
  rw [val_main_v17_apply, val_main_cst_1_apply]; rfl

/-! ## The layers, at row `p * 8192 + s` -/

/-- The router head's first layer. -/
theorem v6_at (x0 : (⟨S4x8192x768, .f32⟩ : BufTy).Contents (Elt Ideal)) (x1 : (⟨S768x384, .f32⟩ : BufTy).Contents (Elt Ideal)) (x2 : (⟨S384, .f32⟩ : BufTy).Contents (Elt Ideal))
    (p : Fin 4) (s : Fin 8192) (j : Fin 384) :
    val_main_v6 (F := Ideal) x0 x1 x2 (ix2 (row p s) j) = hid x0 x1 x2 p s j := by
  rw [val_main_v6_apply, val_main_v4_apply, val_main_v1_apply, bias_v3, zero_v5, Ideal.maximumf_def, Ideal.addf_def]
  unfold Cert.RouterSpec.hid
  congr 2
  refine Finset.sum_congr rfl fun k _ => ?_
  rw [lidx_v1, ridx_v1, v0_at]

/-- The router head's second layer. -/
theorem v12_at (x0 : (⟨S4x8192x768, .f32⟩ : BufTy).Contents (Elt Ideal)) (x1 : (⟨S768x384, .f32⟩ : BufTy).Contents (Elt Ideal)) (x2 : (⟨S384, .f32⟩ : BufTy).Contents (Elt Ideal)) (x3 : (⟨S384x192, .f32⟩ : BufTy).Contents (Elt Ideal)) (x4 : (⟨S192, .f32⟩ : BufTy).Contents (Elt Ideal))
    (p : Fin 4) (s : Fin 8192) (j : Fin 192) :
    val_main_v12 (F := Ideal) x0 x1 x2 x3 x4 (ix2 (row p s) j) = hid2 x0 x1 x2 x3 x4 p s j := by
  rw [val_main_v12_apply, val_main_v10_apply, val_main_v7_apply, bias_v9, zero_v11, Ideal.maximumf_def, Ideal.addf_def]
  unfold Cert.RouterSpec.hid2
  congr 2
  refine Finset.sum_congr rfl fun k _ => ?_
  rw [lidx_v7, ridx_v7, v6_at]

/-- The router head's logits, after the division by the float one. -/
theorem v18_at (x0 : (⟨S4x8192x768, .f32⟩ : BufTy).Contents (Elt Ideal)) (x1 : (⟨S768x384, .f32⟩ : BufTy).Contents (Elt Ideal)) (x2 : (⟨S384, .f32⟩ : BufTy).Contents (Elt Ideal)) (x3 : (⟨S384x192, .f32⟩ : BufTy).Contents (Elt Ideal)) (x4 : (⟨S192, .f32⟩ : BufTy).Contents (Elt Ideal)) (x5 : (⟨S192x8, .f32⟩ : BufTy).Contents (Elt Ideal)) (x6 : (⟨S8, .f32⟩ : BufTy).Contents (Elt Ideal))
    (p : Fin 4) (s : Fin 8192) (e : Fin 8) :
    val_main_v18 (F := Ideal) x0 x1 x2 x3 x4 x5 x6 (ix2 (row p s) e) = logitAt x0 x1 x2 x3 x4 x5 x6 p s e := by
  rw [val_main_v18_apply, one_v17, Ideal.hostDivf_def, Cert.RouterSpec.div_one_word,
    val_main_v16_apply, val_main_v13_apply, bias_v15, Ideal.addf_def]
  unfold Cert.RouterSpec.logitAt
  congr 1
  refine Finset.sum_congr rfl fun k _ => ?_
  rw [lidx_v13, ridx_v13, v12_at]

/-- The value head's first layer. -/
theorem v24_at (x0 : (⟨S4x8192x768, .f32⟩ : BufTy).Contents (Elt Ideal)) (x7 : (⟨S768x384, .f32⟩ : BufTy).Contents (Elt Ideal)) (x8 : (⟨S384, .f32⟩ : BufTy).Contents (Elt Ideal))
    (p : Fin 4) (s : Fin 8192) (j : Fin 384) :
    val_main_v24 (F := Ideal) x0 x7 x8 (ix2 (row p s) j) = hid x0 x7 x8 p s j := by
  rw [val_main_v24_apply, val_main_v22_apply, val_main_v19_apply, bias_v21, zero_v23, Ideal.maximumf_def, Ideal.addf_def]
  unfold Cert.RouterSpec.hid
  congr 2
  refine Finset.sum_congr rfl fun k _ => ?_
  rw [lidx_v19, ridx_v19, v0_at]

/-- The value head's output. -/
theorem v28_at (x0 : (⟨S4x8192x768, .f32⟩ : BufTy).Contents (Elt Ideal)) (x7 : (⟨S768x384, .f32⟩ : BufTy).Contents (Elt Ideal)) (x8 : (⟨S384, .f32⟩ : BufTy).Contents (Elt Ideal)) (x9 : (⟨S384x1, .f32⟩ : BufTy).Contents (Elt Ideal)) (x10 : (⟨S1, .f32⟩ : BufTy).Contents (Elt Ideal))
    (p : Fin 4) (s : Fin 8192) (e : Fin 1) :
    val_main_v28 (F := Ideal) x0 x7 x8 x9 x10 (ix2 (row p s) e) = valueAt x0 x7 x8 x9 x10 p s e := by
  rw [val_main_v28_apply, val_main_v25_apply, bias_v27, Ideal.addf_def]
  unfold Cert.RouterSpec.valueAt
  congr 1
  refine Finset.sum_congr rfl fun k _ => ?_
  rw [lidx_v25, ridx_v25, v24_at]

/-! ## The two results -/

theorem logits_eq (x0 : (⟨S4x8192x768, .f32⟩ : BufTy).Contents (Elt Ideal)) (x1 : (⟨S768x384, .f32⟩ : BufTy).Contents (Elt Ideal)) (x2 : (⟨S384, .f32⟩ : BufTy).Contents (Elt Ideal)) (x3 : (⟨S384x192, .f32⟩ : BufTy).Contents (Elt Ideal)) (x4 : (⟨S192, .f32⟩ : BufTy).Contents (Elt Ideal)) (x5 : (⟨S192x8, .f32⟩ : BufTy).Contents (Elt Ideal)) (x6 : (⟨S8, .f32⟩ : BufTy).Contents (Elt Ideal)) :
    Read.val_main_v29 (F := Ideal) x0 x1 x2 x3 x4 x5 x6 = Cert.RouterSpec.logits x0 x1 x2 x3 x4 x5 x6 := by
  funext i
  obtain ⟨p, s, e, rfl⟩ : ∃ (p : Fin 4) (s : Fin 8192) (e : Fin 8), i = ix3 p s e := ⟨i 0, i 1, i 2, eq_ix3 i⟩
  rw [val_main_v29_apply, flat_out8, v18_at, Cert.RouterSpec.logits_ix3]

theorem values_eq (x0 : (⟨S4x8192x768, .f32⟩ : BufTy).Contents (Elt Ideal)) (x7 : (⟨S768x384, .f32⟩ : BufTy).Contents (Elt Ideal)) (x8 : (⟨S384, .f32⟩ : BufTy).Contents (Elt Ideal)) (x9 : (⟨S384x1, .f32⟩ : BufTy).Contents (Elt Ideal)) (x10 : (⟨S1, .f32⟩ : BufTy).Contents (Elt Ideal)) :
    Read.val_main_v30 (F := Ideal) x0 x7 x8 x9 x10 = Cert.RouterSpec.values x0 x7 x8 x9 x10 := by
  funext i
  obtain ⟨p, s, e, rfl⟩ : ∃ (p : Fin 4) (s : Fin 8192) (e : Fin 1), i = ix3 p s e := ⟨i 0, i 1, i 2, eq_ix3 i⟩
  rw [val_main_v30_apply, flat_out1, v28_at, Cert.RouterSpec.values_ix3]

end Cert.ReferenceIdeal.RefSpec

end
-- ==== Proof.KPieces.lean ====
/-
  What each of the body's two control cases leaves in its buffers, as values.

  At the grid's first point the body packs the two first-layer weights side by side into the carried
  weight buffer (the router head's panel in columns 0–383, the value head's in columns 384–767) and the
  two biases likewise into the carried bias row, then computes its tile from the packed buffers read
  back; at every later point it stores nothing into them and computes its tile from what they hold.
  Each output block is one covering store, so it holds exactly that store's value.
-/
import proofs.«143033_g7164005449791_retrytranche1_166_45_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after some stores reads what those stores leave, whatever they cover. -/
theorem readCov_whole {sig : RefSig} {κ : Kind} {sp : Space} {S : Shape} {e : EltTy} {Val : EltTy → Type}
    [∀ e, Nonempty (Val e)] (v : View sig κ sp S e) (L : List (View.Piece Val S e)) {off : Fin S.rank → Nat}
    (h : off = fun _ => 0) (inb : ∀ a, off a + S.size a ≤ S.size a) :
    v.readCov L (Rect.unit off S.size inb).toLoadRect = View.canon L := by
  rw [View.readCov_eq_canon']
  exact View.ld_unit_zero h inb (View.canon L)

/-- The packed weight: the value head's panel stored over columns 384–767, the router head's over 0–383. -/
def wcat (x1 x3 : Vec F S768x384 .f32) : Vec F S768x768 .f32 :=
  View.canon ([⟨Rect.unit ![0, 384] S768x384.size inb_S768x768_S768x384_0_384, k0_pay4 x3⟩,
    ⟨Rect.unit ![0, 0] S768x384.size inb_S768x768_S768x384_0_0, k0_pay3 x1⟩] : List (View.Piece (Elt F) S768x768 .f32))

/-- The packed bias row, likewise. -/
def bcat (x2 x4 : Vec F S384 .f32) : Vec F S1x768 .f32 :=
  View.canon ([⟨Rect.unit ![0, 384] S1x384.size inb_S1x768_S1x384_0_384, k0_pay6 x4⟩,
    ⟨Rect.unit ![0, 0] S1x384.size inb_S1x768_S1x384_0_0, k0_pay5 x2⟩] : List (View.Piece (Elt F) S1x768 .f32))

/-- First point: the carried weight buffer ends at the packed weight. -/
theorem sout_A_0 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32) :
    sout0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = wcat x1 x3 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2]
  rfl

/-- First point: the carried bias row ends at the packed bias. -/
theorem sout_A_1 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32) :
    sout0_A_1 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = bcat x2 x4 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2]
  rfl

/-- First point: the logits block is the router head's value over the packed buffers just written. -/
theorem out_A_11 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32) :
    out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k0_pay1 (k0_pay9 x0 (wcat x1 x3) (bcat x2 x4) x5 x6 x7 x8) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_unit_zero (S := S1x8x2048) hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2, readCov_whole (S := S768x768) _ _ hz2, readCov_whole (S := S1x768) _ _ hz2]
  rfl

/-- First point: the values block is the value head's value over the packed buffers just written. -/
theorem out_A_12 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32) :
    out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k0_pay2 (k0_pay8 x0 (wcat x1 x3) (bcat x2 x4)) x9 x10 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_unit_zero (S := S1x1x2048) hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2, readCov_whole (S := S768x768) _ _ hz2, readCov_whole (S := S1x768) _ _ hz2]
  rfl

/-- A later point: the logits block is the router head's value over what the carried buffers hold. -/
theorem out_B_11 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : ¬cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32)
    (xs0 : Vec F S768x768 .f32) (xs1 : Vec F S1x768 .f32) :
    out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs0 xs1 = k0_pay1 (k0_pay9 x0 xs0 xs1 x5 x6 x7 x8) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs0 xs1)]
  unfold kernelRun0_B
  dsimp only
  sl_unfold_words
  rw [View.canon_unit_zero (S := S1x8x2048) hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2]

/-- A later point: the values block is the value head's value over what the carried buffers hold. -/
theorem out_B_12 (c : Dev nD) (i : grid0.Coords) (a1 : Memref sig .tc .vmem S1x2048x768 .f32) (h1 : a1.IsWhole) (a2 : Memref sig .tc .vmem S768x384 .f32) (h2 : a2.IsWhole) (a3 : Memref sig .tc .vmem S384 .f32) (h3 : a3.IsWhole) (a4 : Memref sig .tc .vmem S768x384 .f32) (h4 : a4.IsWhole) (a5 : Memref sig .tc .vmem S384 .f32) (h5 : a5.IsWhole) (a6 : Memref sig .tc .vmem S192x384 .f32) (h6 : a6.IsWhole) (a7 : Memref sig .tc .vmem S1x192 .f32) (h7 : a7.IsWhole) (a8 : Memref sig .tc .vmem S8x192 .f32) (h8 : a8.IsWhole) (a9 : Memref sig .tc .vmem S1x8 .f32) (h9 : a9.IsWhole) (a10 : Memref sig .tc .vmem S1x384 .f32) (h10 : a10.IsWhole) (a11 : Memref sig .tc .vmem S1x1 .f32) (h11 : a11.IsWhole) (a12 : Memref sig .tc .vmem S1x8x2048 .f32) (h12 : a12.IsWhole) (a13 : Memref sig .tc .vmem S1x1x2048 .f32) (h13 : a13.IsWhole) (a14 : Memref sig .tc .vmem S768x768 .f32) (h14 : a14.IsWhole) (a15 : Memref sig .tc .vmem S1x768 .f32) (h15 : a15.IsWhole) (hc : ¬cond0_0 i) (x0 : Vec F S1x2048x768 .f32) (x1 : Vec F S768x384 .f32) (x2 : Vec F S384 .f32) (x3 : Vec F S768x384 .f32) (x4 : Vec F S384 .f32) (x5 : Vec F S192x384 .f32) (x6 : Vec F S1x192 .f32) (x7 : Vec F S8x192 .f32) (x8 : Vec F S1x8 .f32) (x9 : Vec F S1x384 .f32) (x10 : Vec F S1x1 .f32)
    (xs0 : Vec F S768x768 .f32) (xs1 : Vec F S1x768 .f32) :
    out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs0 xs1 = k0_pay2 (k0_pay8 x0 xs0 xs1) x9 x10 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs0 xs1)]
  unfold kernelRun0_B
  dsimp only
  sl_unfold_words
  rw [View.canon_unit_zero (S := S1x1x2048) hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S1x2048x768) hz3, View.ld_unit_zero (S := S768x384) hz2, View.ld_unit_zero (S := S384) hz1, View.ld_unit_zero (S := S192x384) hz2, View.ld_unit_zero (S := S1x192) hz2, View.ld_unit_zero (S := S8x192) hz2, View.ld_unit_zero (S := S1x8) hz2, View.ld_unit_zero (S := S1x384) hz2, View.ld_unit_zero (S := S1x1) hz2, View.ld_unit_zero (S := S768x768) hz2, View.ld_unit_zero (S := S1x768) hz2]

end Cert.KernelIdeal.KPieces

end
-- ==== Proof.KInduct.lean ====
/-
  What the buffers hold after each grid point.

  The carried weight and bias buffers are packed at the first point and never stored into again, so
  after every point they hold the packing of the first point's weight and bias blocks; each output block
  is therefore the body's value at that point's activation block over those same packed buffers. By
  induction on the point: the first point is the packing case, every later point the other case (the grid
  has 16 points, so no later point's index is a multiple of 16).
-/
import proofs.«143033_g7164005449791_retrytranche1_166_45_alg».proof.Proof.KPieces

set_option maxRecDepth 16384

noncomputable section

open Idealize.ShloMosaic Idealize.ShloMosaic.TcCoe Idealize.SL.Sem
open Idealize.ShloMosaic.Pipeline (Dat)

namespace Cert.KernelIdeal.KInduct

open Cert.KernelIdeal Cert.KernelIdeal.Gen Cert.KernelIdeal.KPieces

variable {F : FTy → Type} [FloatOps F]
variable (m : (ℓ : Loc nD τ sig) → Buf (Elt F) ℓ)

/-- The packed weight the first point leaves. -/
def Wc (c : Dev nD) : Vec F S768x768 .f32 := wcat (iblk m c 1 t0_0) (iblk m c 3 t0_0)

/-- The packed bias row the first point leaves. -/
def Bc (c : Dev nD) : Vec F S1x768 .f32 := bcat (iblk m c 2 t0_0) (iblk m c 4 t0_0)

/-- The logits block point `t` stores. -/
def logitsBlk (c : Dev nD) (t : Fin cfg0.N) : Vec F S1x8x2048 .f32 :=
  k0_pay1 (k0_pay9 (iblk m c 0 t) (Wc m c) (Bc m c) (iblk m c 5 t) (iblk m c 6 t) (iblk m c 7 t) (iblk m c 8 t))

/-- The values block point `t` stores. -/
def valuesBlk (c : Dev nD) (t : Fin cfg0.N) : Vec F S1x1x2048 .f32 :=
  k0_pay2 (k0_pay8 (iblk m c 0 t) (Wc m c) (Bc m c)) (iblk m c 9 t) (iblk m c 10 t)

/-- After every point the carried buffers hold the packing. -/
theorem carried_eq (c : Dev nD) : ∀ (n : ℕ) (h : n < cfg0.N),
    (outsAt0 m c n h).2.2.1 = Wc m c ∧ (outsAt0 m c n h).2.2.2 = Bc m c
  | 0, h => by
    constructor
    · show (outsAt0 m c (⟨0, h⟩ : Fin cfg0.N).val (⟨0, h⟩ : Fin cfg0.N).isLt).2.2.1 = _
      rw [outsAt0_A m c ⟨0, h⟩ rfl]; dsimp only
      exact sout_A_0 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩)
    · show (outsAt0 m c (⟨0, h⟩ : Fin cfg0.N).val (⟨0, h⟩ : Fin cfg0.N).isLt).2.2.2 = _
      rw [outsAt0_A m c ⟨0, h⟩ rfl]; dsimp only
      exact sout_A_1 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩)
  | n + 1, h => by
    have hN : cfg0.N = 16 := N_0
    have hB : ¬(⟨n + 1, h⟩ : Fin cfg0.N).val % 16 = 0 := by dsimp only; omega
    have ih := carried_eq c n (Nat.lt_of_succ_lt h)
    constructor
    · show (outsAt0 m c (⟨n + 1, h⟩ : Fin cfg0.N).val (⟨n + 1, h⟩ : Fin cfg0.N).isLt).2.2.1 = _
      rw [outsAt0_B m c ⟨n + 1, h⟩ hB]; dsimp only
      unfold sout0_B_0
      exact ih.1
    · show (outsAt0 m c (⟨n + 1, h⟩ : Fin cfg0.N).val (⟨n + 1, h⟩ : Fin cfg0.N).isLt).2.2.2 = _
      rw [outsAt0_B m c ⟨n + 1, h⟩ hB]; dsimp only
      unfold sout0_B_1
      exact ih.2

/-- The only point whose index is a multiple of 16 is the first. -/
theorem eq_t0_of_mod (t : Fin cfg0.N) (h0 : t.val % 16 = 0) : t = t0_0 := by
  have hN : cfg0.N = 16 := N_0
  have := t.isLt
  exact Fin.ext (by show t.val = 0; omega)

/-- What the logits window's buffer holds after point `t`. -/
theorem after_logits (c : Dev nD) (t : Fin cfg0.N) : (outsAt0 m c t.val t.isLt).1 = logitsBlk m c t := by
  by_cases h0 : t.val % 16 = 0
  · rw [outsAt0_A m c t h0]; dsimp only
    refine (out_A_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
    obtain rfl := eq_t0_of_mod t h0
    rfl
  · rw [outsAt0_B m c t h0]; dsimp only
    refine (out_B_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).trans ?_
    rw [(carried_eq m c (t.val - 1) (Nat.lt_of_le_of_lt (Nat.sub_le _ _) t.isLt)).1,
      (carried_eq m c (t.val - 1) (Nat.lt_of_le_of_lt (Nat.sub_le _ _) t.isLt)).2]
    rfl

/-- What the values window's buffer holds after point `t`. -/
theorem after_values (c : Dev nD) (t : Fin cfg0.N) : (outsAt0 m c t.val t.isLt).2.1 = valuesBlk m c t := by
  by_cases h0 : t.val % 16 = 0
  · rw [outsAt0_A m c t h0]; dsimp only
    refine (out_A_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
    obtain rfl := eq_t0_of_mod t h0
    rfl
  · rw [outsAt0_B m c t h0]; dsimp only
    refine (out_B_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).trans ?_
    rw [(carried_eq m c (t.val - 1) (Nat.lt_of_le_of_lt (Nat.sub_le _ _) t.isLt)).1,
      (carried_eq m c (t.val - 1) (Nat.lt_of_le_of_lt (Nat.sub_le _ _) t.isLt)).2]
    rfl

end Cert.KernelIdeal.KInduct

end
-- ==== Proof.Cols.lean ====
/-
  Column indices of the packed first-layer weight: the router head's 384 columns come first, the value
  head's 384 columns after them.
-/
import Mathlib.Data.Fin.Basic
import Mathlib.Tactic.Linarith

namespace Cert.RouterSpec

/-- Column `q` of the router head's panel, as a column of the packed matrix. -/
abbrev colL (q : Fin 384) : Fin 768 := ⟨q.val, by have := q.isLt; omega⟩

/-- Column `q` of the value head's panel, as a column of the packed matrix. -/
abbrev colR (q : Fin 384) : Fin 768 := ⟨384 + q.val, by have := q.isLt; omega⟩

end Cert.RouterSpec
-- ==== Proof.KPay.lean ====
/-
  The kernel body's arithmetic on one tile of 2048 tokens, read at an index over the extended reals.

  `w` is the packed first-layer weight [768, 768] and `b` the packed bias [1, 768]; the tile's fused first
  layer is `max (x·w + b) 0`; its columns 0–383 feed the router head (second layer against the transposed
  W2, third against the transposed W3, the logits stored transposed, experts by tokens), its columns 384–767
  the value head (against the transposed Wv2).
-/
import proofs.«143033_g7164005449791_retrytranche1_166_45_alg».proof.Proof.Gen.KernelIdeal.Skeleton
import proofs.«143033_g7164005449791_retrytranche1_166_45_alg».proof.Proof.Spec
import proofs.«143033_g7164005449791_retrytranche1_166_45_alg».proof.Proof.Cols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx
open Cert.RouterSpec (z colL colR)

/-! ### The first layer's product: rows of the tile against the packed weight's columns -/

private theorem lhs_mm1_0 (i : S2048x768.Idx) (q : dot_S2048x768_S768x768_S2048x768_1_0_0_1_n_n.contr.Idx) :
    (dot_S2048x768_S768x768_S2048x768_1_0_0_1_n_n.lhsIdx i q 0).val = (i 0).val := by
  unfold DotDims.lhsIdx
  rw [dif_neg (show ¬(0 : Fin S2048x768.rank) ∈ dot_S2048x768_S768x768_S2048x768_1_0_0_1_n_n.lhsBatch by decide), dif_pos (show (0 : Fin S2048x768.rank) ∈ dot_S2048x768_S768x768_S2048x768_1_0_0_1_n_n.lhsNonContracting by decide)]
  rfl
private theorem lhs_mm1_1 (i : S2048x768.Idx) (q : dot_S2048x768_S768x768_S2048x768_1_0_0_1_n_n.contr.Idx) :
    (dot_S2048x768_S768x768_S2048x768_1_0_0_1_n_n.lhsIdx i q 1).val = (q ⟨0, by decide⟩).val :=
  dot_S2048x768_S768x768_S2048x768_1_0_0_1_n_n.lhsIdx_val_of_single rfl i q
private theorem rhs_mm1_0 (i : S2048x768.Idx) (q : dot_S2048x768_S768x768_S2048x768_1_0_0_1_n_n.contr.Idx) :
    (dot_S2048x768_S768x768_S2048x768_1_0_0_1_n_n.rhsIdx i q 0).val = (q ⟨0, by decide⟩).val :=
  dot_S2048x768_S768x768_S2048x768_1_0_0_1_n_n.rhsIdx_val_of_single rfl i q
private theorem rhs_mm1_1 (i : S2048x768.Idx) (q : dot_S2048x768_S768x768_S2048x768_1_0_0_1_n_n.contr.Idx) :
    (dot_S2048x768_S768x768_S2048x768_1_0_0_1_n_n.rhsIdx i q 1).val = (i 1).val := by
  unfold DotDims.rhsIdx
  rw [dif_neg (show ¬(1 : Fin S768x768.rank) ∈ dot_S2048x768_S768x768_S2048x768_1_0_0_1_n_n.rhsBatch by decide), dif_pos (show (1 : Fin S768x768.rank) ∈ dot_S2048x768_S768x768_S2048x768_1_0_0_1_n_n.rhsNonContracting by decide)]
  rfl

/-- The first layer's product into the zero accumulator, at token `s` and column `c`: the sum over the 768
    features of activation times weight. -/
private theorem mm1_apply (a : FVec Ideal S2048x768 .f32) (w : FVec Ideal S768x768 .f32) (s : Fin 2048) (c : Fin 768) :
    matmul dot_S2048x768_S768x768_S2048x768_1_0_0_1_n_n none a w (constant (F := Ideal) S2048x768 .f32 0x00000000#32) (ix2 s c)
      = ∑ k : Fin 768, a (ix2 s k) * w (ix2 k c) := by
  simp only [matmul]
  rw [Ideal.matmul_constant_zero_apply, ← Equiv.sum_comp (contrEquiv1 dot_S2048x768_S768x768_S2048x768_1_0_0_1_n_n 768 rfl rfl).symm]
  refine Finset.sum_congr rfl fun k _ => ?_
  have hk := contrEquiv1_symm_val dot_S2048x768_S768x768_S2048x768_1_0_0_1_n_n 768 rfl rfl k
  have el : dot_S2048x768_S768x768_S2048x768_1_0_0_1_n_n.lhsIdx (ix2 s c) ((contrEquiv1 dot_S2048x768_S768x768_S2048x768_1_0_0_1_n_n 768 rfl rfl).symm k) = ix2 s k := funext fun a => Fin.ext (by
    match a with
    | ⟨0, _⟩ => exact lhs_mm1_0 _ _
    | ⟨1, _⟩ => exact (lhs_mm1_1 _ _).trans hk)
  have er : dot_S2048x768_S768x768_S2048x768_1_0_0_1_n_n.rhsIdx (ix2 s c) ((contrEquiv1 dot_S2048x768_S768x768_S2048x768_1_0_0_1_n_n 768 rfl rfl).symm k) = ix2 k c := funext fun a => Fin.ext (by
    match a with
    | ⟨0, _⟩ => exact (rhs_mm1_0 _ _).trans hk
    | ⟨1, _⟩ => exact rhs_mm1_1 _ _)
  rw [el, er]

/-! ### A column broadcast over many columns -/

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The second layer's product: the router head's columns against the transposed second weight -/

private theorem lhs_mm2_0 (i : S2048x192.Idx) (q : dot_S2048x384_S192x384_S2048x192_1_1_0_0_n_n.contr.Idx) :
    (dot_S2048x384_S192x384_S2048x192_1_1_0_0_n_n.lhsIdx i q 0).val = (i 0).val := by
  unfold DotDims.lhsIdx
  rw [dif_neg (show ¬(0 : Fin S2048x384.rank) ∈ dot_S2048x384_S192x384_S2048x192_1_1_0_0_n_n.lhsBatch by decide), dif_pos (show (0 : Fin S2048x384.rank) ∈ dot_S2048x384_S192x384_S2048x192_1_1_0_0_n_n.lhsNonContracting by decide)]
  rfl
private theorem lhs_mm2_1 (i : S2048x192.Idx) (q : dot_S2048x384_S192x384_S2048x192_1_1_0_0_n_n.contr.Idx) :
    (dot_S2048x384_S192x384_S2048x192_1_1_0_0_n_n.lhsIdx i q 1).val = (q ⟨0, by decide⟩).val :=
  dot_S2048x384_S192x384_S2048x192_1_1_0_0_n_n.lhsIdx_val_of_single rfl i q
private theorem rhs_mm2_0 (i : S2048x192.Idx) (q : dot_S2048x384_S192x384_S2048x192_1_1_0_0_n_n.contr.Idx) :
    (dot_S2048x384_S192x384_S2048x192_1_1_0_0_n_n.rhsIdx i q 0).val = (i 1).val := by
  unfold DotDims.rhsIdx
  rw [dif_neg (show ¬(0 : Fin S192x384.rank) ∈ dot_S2048x384_S192x384_S2048x192_1_1_0_0_n_n.rhsBatch by decide), dif_pos (show (0 : Fin S192x384.rank) ∈ dot_S2048x384_S192x384_S2048x192_1_1_0_0_n_n.rhsNonContracting by decide)]
  rfl
private theorem rhs_mm2_1 (i : S2048x192.Idx) (q : dot_S2048x384_S192x384_S2048x192_1_1_0_0_n_n.contr.Idx) :
    (dot_S2048x384_S192x384_S2048x192_1_1_0_0_n_n.rhsIdx i q 1).val = (q ⟨0, by decide⟩).val :=
  dot_S2048x384_S192x384_S2048x192_1_1_0_0_n_n.rhsIdx_val_of_single rfl i q

/-- The second layer's product into the zero accumulator, at token `s` and feature `k`: the sum over the 384
    columns of activation times the transposed weight's entry. -/
private theorem mm2_apply (a : FVec Ideal S2048x384 .bf16) (w : FVec Ideal S192x384 .bf16) (s : Fin 2048) (k : Fin 192) :
    matmul dot_S2048x384_S192x384_S2048x192_1_1_0_0_n_n none a w (constant (F := Ideal) S2048x192 .f32 0x00000000#32) (ix2 s k)
      = ∑ q : Fin 384, a (ix2 s q) * w (ix2 k q) := by
  simp only [matmul]
  rw [Ideal.matmul_constant_zero_apply, ← Equiv.sum_comp (contrEquiv1 dot_S2048x384_S192x384_S2048x192_1_1_0_0_n_n 384 rfl rfl).symm]
  refine Finset.sum_congr rfl fun q _ => ?_
  have hq := contrEquiv1_symm_val dot_S2048x384_S192x384_S2048x192_1_1_0_0_n_n 384 rfl rfl q
  have el : dot_S2048x384_S192x384_S2048x192_1_1_0_0_n_n.lhsIdx (ix2 s k) ((contrEquiv1 dot_S2048x384_S192x384_S2048x192_1_1_0_0_n_n 384 rfl rfl).symm q) = ix2 s q := funext fun a => Fin.ext (by
    match a with
    | ⟨0, _⟩ => exact lhs_mm2_0 _ _
    | ⟨1, _⟩ => exact (lhs_mm2_1 _ _).trans hq)
  have er : dot_S2048x384_S192x384_S2048x192_1_1_0_0_n_n.rhsIdx (ix2 s k) ((contrEquiv1 dot_S2048x384_S192x384_S2048x192_1_1_0_0_n_n 384 rfl rfl).symm q) = ix2 k q := funext fun a => Fin.ext (by
    match a with
    | ⟨0, _⟩ => exact rhs_mm2_0 _ _
    | ⟨1, _⟩ => exact (rhs_mm2_1 _ _).trans hq)
  rw [el, er]

/-! ### The third layer's product: the transposed third weight against the rectified second layer, experts by tokens -/

private theorem lhs_mm3_0 (i : S8x2048.Idx) (q : dot_S8x192_S2048x192_S8x2048_1_1_0_0_n_n.contr.Idx) :
    (dot_S8x192_S2048x192_S8x2048_1_1_0_0_n_n.lhsIdx i q 0).val = (i 0).val := by
  unfold DotDims.lhsIdx
  rw [dif_neg (show ¬(0 : Fin S8x192.rank) ∈ dot_S8x192_S2048x192_S8x2048_1_1_0_0_n_n.lhsBatch by decide), dif_pos (show (0 : Fin S8x192.rank) ∈ dot_S8x192_S2048x192_S8x2048_1_1_0_0_n_n.lhsNonContracting by decide)]
  rfl
private theorem lhs_mm3_1 (i : S8x2048.Idx) (q : dot_S8x192_S2048x192_S8x2048_1_1_0_0_n_n.contr.Idx) :
    (dot_S8x192_S2048x192_S8x2048_1_1_0_0_n_n.lhsIdx i q 1).val = (q ⟨0, by decide⟩).val :=
  dot_S8x192_S2048x192_S8x2048_1_1_0_0_n_n.lhsIdx_val_of_single rfl i q
private theorem rhs_mm3_0 (i : S8x2048.Idx) (q : dot_S8x192_S2048x192_S8x2048_1_1_0_0_n_n.contr.Idx) :
    (dot_S8x192_S2048x192_S8x2048_1_1_0_0_n_n.rhsIdx i q 0).val = (i 1).val := by
  unfold DotDims.rhsIdx
  rw [dif_neg (show ¬(0 : Fin S2048x192.rank) ∈ dot_S8x192_S2048x192_S8x2048_1_1_0_0_n_n.rhsBatch by decide), dif_pos (show (0 : Fin S2048x192.rank) ∈ dot_S8x192_S2048x192_S8x2048_1_1_0_0_n_n.rhsNonContracting by decide)]
  rfl
private theorem rhs_mm3_1 (i : S8x2048.Idx) (q : dot_S8x192_S2048x192_S8x2048_1_1_0_0_n_n.contr.Idx) :
    (dot_S8x192_S2048x192_S8x2048_1_1_0_0_n_n.rhsIdx i q 1).val = (q ⟨0, by decide⟩).val :=
  dot_S8x192_S2048x192_S8x2048_1_1_0_0_n_n.rhsIdx_val_of_single rfl i q

/-- The third layer's product into the zero accumulator, at expert `e` and token `s`: the sum over the 192
    features of the transposed weight's entry times the activation. -/
private theorem mm3_apply (a : FVec Ideal S8x192 .bf16) (w : FVec Ideal S2048x192 .bf16) (e : Fin 8) (s : Fin 2048) :
    matmul dot_S8x192_S2048x192_S8x2048_1_1_0_0_n_n none a w (constant (F := Ideal) S8x2048 .f32 0x00000000#32) (ix2 e s)
      = ∑ k : Fin 192, a (ix2 e k) * w (ix2 s k) := by
  simp only [matmul]
  rw [Ideal.matmul_constant_zero_apply, ← Equiv.sum_comp (contrEquiv1 dot_S8x192_S2048x192_S8x2048_1_1_0_0_n_n 192 rfl rfl).symm]
  refine Finset.sum_congr rfl fun k _ => ?_
  have hk := contrEquiv1_symm_val dot_S8x192_S2048x192_S8x2048_1_1_0_0_n_n 192 rfl rfl k
  have el : dot_S8x192_S2048x192_S8x2048_1_1_0_0_n_n.lhsIdx (ix2 e s) ((contrEquiv1 dot_S8x192_S2048x192_S8x2048_1_1_0_0_n_n 192 rfl rfl).symm k) = ix2 e k := funext fun a => Fin.ext (by
    match a with
    | ⟨0, _⟩ => exact lhs_mm3_0 _ _
    | ⟨1, _⟩ => exact (lhs_mm3_1 _ _).trans hk)
  have er : dot_S8x192_S2048x192_S8x2048_1_1_0_0_n_n.rhsIdx (ix2 e s) ((contrEquiv1 dot_S8x192_S2048x192_S8x2048_1_1_0_0_n_n 192 rfl rfl).symm k) = ix2 s k := funext fun a => Fin.ext (by
    match a with
    | ⟨0, _⟩ => exact rhs_mm3_0 _ _
    | ⟨1, _⟩ => exact (rhs_mm3_1 _ _).trans hk)
  rw [el, er]

/-! ### The value head's product: the transposed value weight against the value head's columns -/

private theorem lhs_mm4_0 (i : S1x2048.Idx) (q : dot_S1x384_S2048x384_S1x2048_1_1_0_0_n_n.contr.Idx) :
    (dot_S1x384_S2048x384_S1x2048_1_1_0_0_n_n.lhsIdx i q 0).val = (i 0).val := by
  unfold DotDims.lhsIdx
  rw [dif_neg (show ¬(0 : Fin S1x384.rank) ∈ dot_S1x384_S2048x384_S1x2048_1_1_0_0_n_n.lhsBatch by decide), dif_pos (show (0 : Fin S1x384.rank) ∈ dot_S1x384_S2048x384_S1x2048_1_1_0_0_n_n.lhsNonContracting by decide)]
  rfl
private theorem lhs_mm4_1 (i : S1x2048.Idx) (q : dot_S1x384_S2048x384_S1x2048_1_1_0_0_n_n.contr.Idx) :
    (dot_S1x384_S2048x384_S1x2048_1_1_0_0_n_n.lhsIdx i q 1).val = (q ⟨0, by decide⟩).val :=
  dot_S1x384_S2048x384_S1x2048_1_1_0_0_n_n.lhsIdx_val_of_single rfl i q
private theorem rhs_mm4_0 (i : S1x2048.Idx) (q : dot_S1x384_S2048x384_S1x2048_1_1_0_0_n_n.contr.Idx) :
    (dot_S1x384_S2048x384_S1x2048_1_1_0_0_n_n.rhsIdx i q 0).val = (i 1).val := by
  unfold DotDims.rhsIdx
  rw [dif_neg (show ¬(0 : Fin S2048x384.rank) ∈ dot_S1x384_S2048x384_S1x2048_1_1_0_0_n_n.rhsBatch by decide), dif_pos (show (0 : Fin S2048x384.rank) ∈ dot_S1x384_S2048x384_S1x2048_1_1_0_0_n_n.rhsNonContracting by decide)]
  rfl
private theorem rhs_mm4_1 (i : S1x2048.Idx) (q : dot_S1x384_S2048x384_S1x2048_1_1_0_0_n_n.contr.Idx) :
    (dot_S1x384_S2048x384_S1x2048_1_1_0_0_n_n.rhsIdx i q 1).val = (q ⟨0, by decide⟩).val :=
  dot_S1x384_S2048x384_S1x2048_1_1_0_0_n_n.rhsIdx_val_of_single rfl i q

/-- The value head's product into the zero accumulator, at the one row `v` and token `s`: the sum over the 384
    columns of the transposed weight's entry times the activation. -/
private theorem mm4_apply (a : FVec Ideal S1x384 .bf16) (w : FVec Ideal S2048x384 .bf16) (v : Fin 1) (s : Fin 2048) :
    matmul dot_S1x384_S2048x384_S1x2048_1_1_0_0_n_n none a w (constant (F := Ideal) S1x2048 .f32 0x00000000#32) (ix2 v s)
      = ∑ q : Fin 384, a (ix2 v q) * w (ix2 s q) := by
  simp only [matmul]
  rw [Ideal.matmul_constant_zero_apply, ← Equiv.sum_comp (contrEquiv1 dot_S1x384_S2048x384_S1x2048_1_1_0_0_n_n 384 rfl rfl).symm]
  refine Finset.sum_congr rfl fun q _ => ?_
  have hq := contrEquiv1_symm_val dot_S1x384_S2048x384_S1x2048_1_1_0_0_n_n 384 rfl rfl q
  have el : dot_S1x384_S2048x384_S1x2048_1_1_0_0_n_n.lhsIdx (ix2 v s) ((contrEquiv1 dot_S1x384_S2048x384_S1x2048_1_1_0_0_n_n 384 rfl rfl).symm q) = ix2 v q := funext fun a => Fin.ext (by
    match a with
    | ⟨0, _⟩ => exact lhs_mm4_0 _ _
    | ⟨1, _⟩ => exact (lhs_mm4_1 _ _).trans hq)
  have er : dot_S1x384_S2048x384_S1x2048_1_1_0_0_n_n.rhsIdx (ix2 v s) ((contrEquiv1 dot_S1x384_S2048x384_S1x2048_1_1_0_0_n_n 384 rfl rfl).symm q) = ix2 s q := funext fun a => Fin.ext (by
    match a with
    | ⟨0, _⟩ => exact rhs_mm4_0 _ _
    | ⟨1, _⟩ => exact (rhs_mm4_1 _ _).trans hq)
  rw [el, er]

/-! ### The three payloads at an index -/

/-- The fused first layer at token `s` of the tile and packed column `c`. -/
theorem pay7_apply (x0 : Vec Ideal S1x2048x768 .f32) (w : Vec Ideal S768x768 .f32) (b : Vec Ideal S1x768 .f32)
    (s : Fin 2048) (c : Fin 768) :
    k0_pay7 (F := Ideal) x0 w b (ix2 s c)
      = max ((∑ k : Fin 768, x0 (ix3 (0 : Fin 1) s k) * w (ix2 k c)) + b (ix2 (0 : Fin 1) c)) z := by
  unfold k0_pay7
  -- the narrowing, the maximum, the sum and the splat zero read through at the index
  show max (matmul dot_S2048x768_S768x768_S2048x768_1_0_0_1_n_n none
          (shapeCast S2048x768 x0 shapeCasts_S1x2048x768_S2048x768) w
          (constant (F := Ideal) S2048x768 .f32 0x00000000#32) (ix2 s c)
        + broadcastTo S2048x768 b broadcasts_S1x768_S2048x768 (ix2 s c)) z = _
  refine congrArg (fun t => max t z) ?_
  refine (congrArg₂ (· + ·) (mm1_apply _ w s c) (broadcastTo_1b_ab_apply b broadcasts_S1x768_S2048x768 s c)).trans ?_
  refine congrArg (· + b (ix2 (0 : Fin 1) c)) ?_
  exact Finset.sum_congr rfl fun k _ =>
    congrArg (· * w (ix2 k c)) (shapeCast_1ab_ab_apply x0 shapeCasts_S1x2048x768_S2048x768 s k)

/-- The stored logits block at expert `e` and token `s`: the third layer over the rectified second layer, the
    second layer over the router head's columns of the fused first layer. -/
theorem pay1_apply (x0 : Vec Ideal S1x2048x768 .f32) (w : Vec Ideal S768x768 .f32) (b : Vec Ideal S1x768 .f32)
    (x5 : Vec Ideal S192x384 .f32) (x6 : Vec Ideal S1x192 .f32) (x7 : Vec Ideal S8x192 .f32) (x8 : Vec Ideal S1x8 .f32)
    (u : Fin 1) (e : Fin 8) (s : Fin 2048) :
    k0_pay1 (F := Ideal) (k0_pay9 (F := Ideal) x0 w b x5 x6 x7 x8) (ix3 u e s)
      = (∑ k : Fin 192, x7 (ix2 e k)
            * max ((∑ q : Fin 384, k0_pay7 (F := Ideal) x0 w b (ix2 s (colL q)) * x5 (ix2 k q)) + x6 (ix2 (0 : Fin 1) k)) z)
          + x8 (ix2 (0 : Fin 1) e) := by
  unfold k0_pay1 k0_pay9
  -- the added unit axis, then the sum of the product and the broadcast bias, each at (e, s)
  refine (shapeCast_ab_1ab_apply _ shapeCasts_S8x2048_S1x8x2048 u e s).trans ?_
  refine (addf_apply _ _ (ix2 e s)).trans ?_
  refine congrArg₂ (· + ·) ?_ ?_
  · -- the third layer: the transposed weight's row e against the rectified second layer's row s
    refine (mm3_apply _ _ e s).trans ?_
    refine Finset.sum_congr rfl fun k _ => congrArg₂ (· * ·) ?_ ?_
    · exact congrFun (shapeCast_self x7 shapeCasts_S8x192_S8x192) (ix2 e k)
    · -- the rectified second layer at (s, k)
      show max (matmul dot_S2048x384_S192x384_S2048x192_1_1_0_0_n_n none
              (extractStridedSlice S2048x384 ![0, 0] (k0_pay7 (F := Ideal) x0 w b) slices_S2048x768_o0_0_S2048x384)
              (truncf .bf16 (shapeCast S192x384 x5 shapeCasts_S192x384_S192x384) bitsLt_bf16_f32)
              (constant (F := Ideal) S2048x192 .f32 0x00000000#32) (ix2 s k)
            + broadcastTo S2048x192 (shapeCast S1x192 x6 shapeCasts_S1x192_S1x192) broadcasts_S1x192_S2048x192 (ix2 s k)) z = _
      refine congrArg (fun t => max t z) (congrArg₂ (· + ·) ?_ ?_)
      · refine (mm2_apply _ _ s k).trans ?_
        refine Finset.sum_congr rfl fun q _ => congrArg₂ (· * ·) ?_ ?_
        · exact slice2_axis1_apply 0 (k0_pay7 (F := Ideal) x0 w b) slices_S2048x768_o0_0_S2048x384 s q (colL q)
            (Nat.zero_add _).symm
        · exact congrFun (shapeCast_self x5 shapeCasts_S192x384_S192x384) (ix2 k q)
      · refine (broadcastTo_1b_ab_apply _ broadcasts_S1x192_S2048x192 s k).trans ?_
        exact congrFun (shapeCast_self x6 shapeCasts_S1x192_S1x192) (ix2 (0 : Fin 1) k)
  · -- the third bias, transposed to a column and broadcast along the tokens
    refine (broadcastTo_a1_ab_apply _ broadcasts_S8x1_S8x2048 e s).trans ?_
    refine (transpose_ix2_apply _ transposes_S1x8_p1_0_S8x1 e (0 : Fin 1)).trans ?_
    exact congrFun (shapeCast_self x8 shapeCasts_S1x8_S1x8) (ix2 (0 : Fin 1) e)

/-- The stored values block at token `s`: the value head's last layer over its columns of the fused first layer. -/
theorem pay2_apply (x0 : Vec Ideal S1x2048x768 .f32) (w : Vec Ideal S768x768 .f32) (b : Vec Ideal S1x768 .f32)
    (x9 : Vec Ideal S1x384 .f32) (x10 : Vec Ideal S1x1 .f32) (u v : Fin 1) (s : Fin 2048) :
    k0_pay2 (F := Ideal) (k0_pay8 (F := Ideal) x0 w b) x9 x10 (ix3 u v s)
      = (∑ q : Fin 384, x9 (ix2 (0 : Fin 1) q) * k0_pay7 (F := Ideal) x0 w b (ix2 s (colR q)))
          + x10 (ix2 (0 : Fin 1) (0 : Fin 1)) := by
  -- the one row
  obtain rfl : v = 0 := Subsingleton.elim v 0
  unfold k0_pay2 k0_pay8
  -- the added unit axis, then the sum of the product and the broadcast bias, each at (0, s)
  refine (shapeCast_ab_1ab_apply _ shapeCasts_S1x2048_S1x1x2048 u (0 : Fin 1) s).trans ?_
  refine (addf_apply _ _ (ix2 (0 : Fin 1) s)).trans ?_
  refine congrArg₂ (· + ·) ?_ ?_
  · refine (mm4_apply _ _ (0 : Fin 1) s).trans ?_
    refine Finset.sum_congr rfl fun q _ => congrArg₂ (· * ·) ?_ ?_
    · exact congrFun (shapeCast_self x9 shapeCasts_S1x384_S1x384) (ix2 (0 : Fin 1) q)
    · exact slice2_axis1_apply 384 (k0_pay7 (F := Ideal) x0 w b) slices_S2048x768_o0_384_S2048x384 s q (colR q) rfl
  · refine (broadcastTo_a1_ab_apply _ broadcasts_S1x1_S1x2048 (0 : Fin 1) s).trans ?_
    exact congrFun (shapeCast_self x10 shapeCasts_S1x1_S1x1) (ix2 (0 : Fin 1) (0 : Fin 1))

end Cert.KernelIdeal.KPay

end
-- ==== Proof.KBlocks.lean ====
/-
  What the body's loads hold, in terms of the program's argument arrays.

  The activation window moves: at grid point `t` its block is batch `t / 4`, tokens
  `(t % 4)·2048 … (t % 4)·2048 + 2047`, all 768 features. Every other input window holds its whole array at
  every point. Three of those arrays are written by the program before the launch: the transposes of W2, W3
  and Wv2, and the three biases b2, b3, bv2 as one-row matrices. The packed first-layer buffers hold the router
  head's weight and bias in columns 0–383 and the value head's in columns 384–767.
-/
import proofs.«143033_g7164005449791_retrytranche1_166_45_alg».proof.Proof.KPieces
import proofs.«143033_g7164005449791_retrytranche1_166_45_alg».proof.Proof.Cols
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem

namespace Cert.KernelIdeal.KBlocks

open Cert.KernelIdeal Cert.KernelIdeal.Gen Cert.KernelIdeal.KPieces Idealize.ShloMosaic.ValueIdx
open Cert.RouterSpec (colL colR)

variable {F : FTy → Type} [FloatOps F]
variable (m : (ℓ : Loc nD τ sig) → Buf (Elt F) ℓ)

/-! ## The packed buffers, column by column -/

/-- An index in the left half of the columns is outside a panel stored from column 384 on. -/
private theorem not_mem_right {n : Nat} (size : Fin 2 → Nat) (inb : ∀ a, (![0, 384] : Fin 2 → Nat) a + size a ≤ (⟨2, ![n, 768]⟩ : Shape).size a)
    (k : Fin n) (q : Fin 384) :
    (ix2 k (colL q) : (⟨2, ![n, 768]⟩ : Shape).Idx) ∉ (Rect.unit (s := ⟨2, ![n, 768]⟩) ![0, 384] size inb).set := by
  rw [Rect.mem_set_unit]
  intro h
  have h1 : 384 ≤ q.val := (h 1).1
  omega

theorem wcat_colL (x1 x3 : Vec F S768x384 .f32) (k : Fin 768) (q : Fin 384) :
    wcat x1 x3 (ix2 k (colL q)) = x1 (ix2 k q) := by
  unfold wcat
  rw [View.canon_cons_of_not_mem]
  swap
  · exact not_mem_right S768x384.size inb_S768x768_S768x384_0_384 k q
  have he : (ix2 k (colL q) : S768x768.Idx)
      = (Rect.unit (s := S768x768) ![0, 0] S768x384.size inb_S768x768_S768x384_0_0).emb (ix2 k q) := by
    funext a; apply Fin.ext
    match a with
    | ⟨0, _⟩ => show k.val = 0 + 1 * k.val; omega
    | ⟨1, _⟩ => show q.val = 0 + 1 * q.val; omega
  rw [he, View.canon_cons_emb]
  show shapeCast S768x384 x1 shapeCasts_S768x384_S768x384 (ix2 k q) = x1 (ix2 k q)
  exact shapeCast_apply x1 shapeCasts_S768x384_S768x384 (ix2 k q) (ix2 k q) rfl

theorem wcat_colR (x1 x3 : Vec F S768x384 .f32) (k : Fin 768) (q : Fin 384) :
    wcat x1 x3 (ix2 k (colR q)) = x3 (ix2 k q) := by
  unfold wcat
  have he : (ix2 k (colR q) : S768x768.Idx)
      = (Rect.unit (s := S768x768) ![0, 384] S768x384.size inb_S768x768_S768x384_0_384).emb (ix2 k q) := by
    funext a; apply Fin.ext
    match a with
    | ⟨0, _⟩ => show k.val = 0 + 1 * k.val; omega
    | ⟨1, _⟩ => show 384 + q.val = 384 + 1 * q.val; omega
  rw [he, View.canon_cons_emb]
  show shapeCast S768x384 x3 shapeCasts_S768x384_S768x384 (ix2 k q) = x3 (ix2 k q)
  exact shapeCast_apply x3 shapeCasts_S768x384_S768x384 (ix2 k q) (ix2 k q) rfl

theorem bcat_colL (x2 x4 : Vec F S384 .f32) (q : Fin 384) :
    bcat x2 x4 (ix2 (0 : Fin 1) (colL q)) = x2 (ix1 q) := by
  unfold bcat
  rw [View.canon_cons_of_not_mem]
  swap
  · exact not_mem_right S1x384.size inb_S1x768_S1x384_0_384 (0 : Fin 1) q
  have he : (ix2 (0 : Fin 1) (colL q) : S1x768.Idx)
      = (Rect.unit (s := S1x768) ![0, 0] S1x384.size inb_S1x768_S1x384_0_0).emb (ix2 (0 : Fin 1) q) := by
    funext a; apply Fin.ext
    match a with
    | ⟨0, _⟩ => show 0 = 0 + 1 * 0; omega
    | ⟨1, _⟩ => show q.val = 0 + 1 * q.val; omega
  rw [he, View.canon_cons_emb]
  unfold k0_pay5
  exact shapeCast_a_1a_apply x2 _ (0 : Fin 1) q

theorem bcat_colR (x2 x4 : Vec F S384 .f32) (q : Fin 384) :
    bcat x2 x4 (ix2 (0 : Fin 1) (colR q)) = x4 (ix1 q) := by
  unfold bcat
  have he : (ix2 (0 : Fin 1) (colR q) : S1x768.Idx)
      = (Rect.unit (s := S1x768) ![0, 384] S1x384.size inb_S1x768_S1x384_0_384).emb (ix2 (0 : Fin 1) q) := by
    funext a; apply Fin.ext
    match a with
    | ⟨0, _⟩ => show 0 = 0 + 1 * 0; omega
    | ⟨1, _⟩ => show 384 + q.val = 384 + 1 * q.val; omega
  rw [he, View.canon_cons_emb]
  unfold k0_pay6
  exact shapeCast_a_1a_apply x4 _ (0 : Fin 1) q

/-! ## The windows' blocks -/

/-- Where each input window's block sits, at every grid point: the activation block at batch `t / 4`, token block
    `t % 4`; every other block at the array's origin. -/
private theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The activation block at point `t`: batch `t / 4`, token `(t % 4)·2048 + s`. -/
theorem blk0_apply (c : Dev nD) (t : Fin cfg0.N) (s : Fin 2048) (k : Fin 768) (p : Fin 4) (r : Fin 8192)
    (hp : p.val = t.val / 4) (hr : r.val = (t.val % 4) * 2048 + s.val) :
    (iblk m c 0 t : Vec F S1x2048x768 .f32) (ix3 (0 : Fin 1) s k) = m ((c : Thread nD τ).loc main_arg0) (ix3 p r k) := by
  obtain ⟨⟨e0, e1, e2⟩, _⟩ := idx_facts t
  show V m c main_arg0 (((cfg0.win 0).blk t).view.emb (ix3 (0 : Fin 1) s k)) = _
  rw [V_main_arg0]
  congr 1
  funext a; apply Fin.ext
  match a with
  | ⟨0, _⟩ => show win0_0.index t (0 : Fin 3) * 1 + 1 * 0 = p.val; omega
  | ⟨1, _⟩ => show win0_0.index t (1 : Fin 3) * 2048 + 1 * s.val = r.val; omega
  | ⟨2, _⟩ => show win0_0.index t (2 : Fin 3) * 768 + 1 * k.val = k.val; omega

theorem blk1_apply (c : Dev nD) (t : Fin cfg0.N) (k : Fin 768) (j : Fin 384) :
    (iblk m c 1 t : Vec F S768x384 .f32) (ix2 k j) = m ((c : Thread nD τ).loc main_arg1) (ix2 k j) := by
  obtain ⟨_, ⟨e0, e1⟩, _⟩ := idx_facts t
  show V m c main_arg1 (((cfg0.win 1).blk t).view.emb (ix2 k j)) = _
  rw [V_main_arg1]
  congr 1
  funext a; apply Fin.ext
  match a with
  | ⟨0, _⟩ => show win0_1.index t (0 : Fin 2) * 768 + 1 * k.val = k.val; omega
  | ⟨1, _⟩ => show win0_1.index t (1 : Fin 2) * 384 + 1 * j.val = j.val; omega

theorem blk2_apply (c : Dev nD) (t : Fin cfg0.N) (j : Fin 384) :
    (iblk m c 2 t : Vec F S384 .f32) (ix1 j) = m ((c : Thread nD τ).loc main_arg2) (ix1 j) := by
  obtain ⟨_, _, e0, _⟩ := idx_facts t
  show V m c main_arg2 (((cfg0.win 2).blk t).view.emb (ix1 j)) = _
  rw [V_main_arg2]
  congr 1
  funext a; apply Fin.ext
  match a with
  | ⟨0, _⟩ => show win0_2.index t (0 : Fin 1) * 384 + 1 * j.val = j.val; omega

theorem blk3_apply (c : Dev nD) (t : Fin cfg0.N) (k : Fin 768) (j : Fin 384) :
    (iblk m c 3 t : Vec F S768x384 .f32) (ix2 k j) = m ((c : Thread nD τ).loc main_arg7) (ix2 k j) := by
  obtain ⟨_, _, _, ⟨e0, e1⟩, _⟩ := idx_facts t
  show V m c main_arg7 (((cfg0.win 3).blk t).view.emb (ix2 k j)) = _
  rw [V_main_arg7]
  congr 1
  funext a; apply Fin.ext
  match a with
  | ⟨0, _⟩ => show win0_3.index t (0 : Fin 2) * 768 + 1 * k.val = k.val; omega
  | ⟨1, _⟩ => show win0_3.index t (1 : Fin 2) * 384 + 1 * j.val = j.val; omega

theorem blk4_apply (c : Dev nD) (t : Fin cfg0.N) (j : Fin 384) :
    (iblk m c 4 t : Vec F S384 .f32) (ix1 j) = m ((c : Thread nD τ).loc main_arg8) (ix1 j) := by
  obtain ⟨_, _, _, _, e0, _⟩ := idx_facts t
  show V m c main_arg8 (((cfg0.win 4).blk t).view.emb (ix1 j)) = _
  rw [V_main_arg8]
  congr 1
  funext a; apply Fin.ext
  match a with
  | ⟨0, _⟩ => show win0_4.index t (0 : Fin 1) * 384 + 1 * j.val = j.val; omega

/-! The six arrays the program writes before the launch, as the region finds them. -/

private theorem V_main_v0 (c : Dev nD) :
    (V m c main_v0 : (⟨S192x384, .f32⟩ : BufTy).Contents (Elt F))
      = transpose S192x384 [1, 0] (m ((c : Thread nD τ).loc main_arg3)) transposes_S384x192_S192x384_1_0 := by
  show StableHlo.after hostOps0 (fun b => m (c, b)) (Proc.devRef .tc main_v0) = _
  after_results <;> rfl

private theorem V_main_v1 (c : Dev nD) :
    (V m c main_v1 : (⟨S1x192, .f32⟩ : BufTy).Contents (Elt F))
      = shapeCast S1x192 (m ((c : Thread nD τ).loc main_arg4)) shapeCasts_S192_S1x192 := by
  show StableHlo.after hostOps0 (fun b => m (c, b)) (Proc.devRef .tc main_v1) = _
  after_results <;> rfl

private theorem V_main_v2 (c : Dev nD) :
    (V m c main_v2 : (⟨S8x192, .f32⟩ : BufTy).Contents (Elt F))
      = transpose S8x192 [1, 0] (m ((c : Thread nD τ).loc main_arg5)) transposes_S192x8_S8x192_1_0 := by
  show StableHlo.after hostOps0 (fun b => m (c, b)) (Proc.devRef .tc main_v2) = _
  after_results <;> rfl

private theorem V_main_v3 (c : Dev nD) :
    (V m c main_v3 : (⟨S1x8, .f32⟩ : BufTy).Contents (Elt F))
      = shapeCast S1x8 (m ((c : Thread nD τ).loc main_arg6)) shapeCasts_S8_S1x8 := by
  show StableHlo.after hostOps0 (fun b => m (c, b)) (Proc.devRef .tc main_v3) = _
  after_results <;> rfl

private theorem V_main_v4 (c : Dev nD) :
    (V m c main_v4 : (⟨S1x384, .f32⟩ : BufTy).Contents (Elt F))
      = transpose S1x384 [1, 0] (m ((c : Thread nD τ).loc main_arg9)) transposes_S384x1_S1x384_1_0 := by
  show StableHlo.after hostOps0 (fun b => m (c, b)) (Proc.devRef .tc main_v4) = _
  after_results <;> rfl

private theorem V_main_v5 (c : Dev nD) :
    (V m c main_v5 : (⟨S1x1, .f32⟩ : BufTy).Contents (Elt F))
      = shapeCast S1x1 (m ((c : Thread nD τ).loc main_arg10)) shapeCasts_S1_S1x1 := by
  show StableHlo.after hostOps0 (fun b => m (c, b)) (Proc.devRef .tc main_v5) = _
  after_results <;> rfl

/-- The second layer's weight arrives transposed. -/
theorem blk5_apply (c : Dev nD) (t : Fin cfg0.N) (j : Fin 192) (k : Fin 384) :
    (iblk m c 5 t : Vec F S192x384 .f32) (ix2 j k) = m ((c : Thread nD τ).loc main_arg3) (ix2 k j) := by
  obtain ⟨_, _, _, _, _, ⟨e0, e1⟩, _⟩ := idx_facts t
  show V m c main_v0 (((cfg0.win 5).blk t).view.emb (ix2 j k)) = _
  have he : ((cfg0.win 5).blk t).view.emb (ix2 j k) = (ix2 j k : S192x384.Idx) := by
    funext a; apply Fin.ext
    match a with
    | ⟨0, _⟩ => show win0_5.index t (0 : Fin 2) * 192 + 1 * j.val = j.val; omega
    | ⟨1, _⟩ => show win0_5.index t (1 : Fin 2) * 384 + 1 * k.val = k.val; omega
  rw [he, V_main_v0]
  exact transpose_ix2_apply _ _ j k

theorem blk6_apply (c : Dev nD) (t : Fin cfg0.N) (j : Fin 192) :
    (iblk m c 6 t : Vec F S1x192 .f32) (ix2 (0 : Fin 1) j) = m ((c : Thread nD τ).loc main_arg4) (ix1 j) := by
  obtain ⟨_, _, _, _, _, _, ⟨e0, e1⟩, _⟩ := idx_facts t
  show V m c main_v1 (((cfg0.win 6).blk t).view.emb (ix2 (0 : Fin 1) j)) = _
  have he : ((cfg0.win 6).blk t).view.emb (ix2 (0 : Fin 1) j) = (ix2 (0 : Fin 1) j : S1x192.Idx) := by
    funext a; apply Fin.ext
    match a with
    | ⟨0, _⟩ => show win0_6.index t (0 : Fin 2) * 1 + 1 * 0 = 0; omega
    | ⟨1, _⟩ => show win0_6.index t (1 : Fin 2) * 192 + 1 * j.val = j.val; omega
  rw [he, V_main_v1]
  exact shapeCast_a_1a_apply _ _ (0 : Fin 1) j

/-- The third layer's weight arrives transposed. -/
theorem blk7_apply (c : Dev nD) (t : Fin cfg0.N) (e : Fin 8) (k : Fin 192) :
    (iblk m c 7 t : Vec F S8x192 .f32) (ix2 e k) = m ((c : Thread nD τ).loc main_arg5) (ix2 k e) := by
  obtain ⟨_, _, _, _, _, _, _, ⟨e0, e1⟩, _⟩ := idx_facts t
  show V m c main_v2 (((cfg0.win 7).blk t).view.emb (ix2 e k)) = _
  have he : ((cfg0.win 7).blk t).view.emb (ix2 e k) = (ix2 e k : S8x192.Idx) := by
    funext a; apply Fin.ext
    match a with
    | ⟨0, _⟩ => show win0_7.index t (0 : Fin 2) * 8 + 1 * e.val = e.val; omega
    | ⟨1, _⟩ => show win0_7.index t (1 : Fin 2) * 192 + 1 * k.val = k.val; omega
  rw [he, V_main_v2]
  exact transpose_ix2_apply _ _ e k

theorem blk8_apply (c : Dev nD) (t : Fin cfg0.N) (e : Fin 8) :
    (iblk m c 8 t : Vec F S1x8 .f32) (ix2 (0 : Fin 1) e) = m ((c : Thread nD τ).loc main_arg6) (ix1 e) := by
  obtain ⟨_, _, _, _, _, _, _, _, ⟨e0, e1⟩, _⟩ := idx_facts t
  show V m c main_v3 (((cfg0.win 8).blk t).view.emb (ix2 (0 : Fin 1) e)) = _
  have he : ((cfg0.win 8).blk t).view.emb (ix2 (0 : Fin 1) e) = (ix2 (0 : Fin 1) e : S1x8.Idx) := by
    funext a; apply Fin.ext
    match a with
    | ⟨0, _⟩ => show win0_8.index t (0 : Fin 2) * 1 + 1 * 0 = 0; omega
    | ⟨1, _⟩ => show win0_8.index t (1 : Fin 2) * 8 + 1 * e.val = e.val; omega
  rw [he, V_main_v3]
  exact shapeCast_a_1a_apply _ _ (0 : Fin 1) e

/-- The value head's last weight arrives transposed. -/
theorem blk9_apply (c : Dev nD) (t : Fin cfg0.N) (q : Fin 384) :
    (iblk m c 9 t : Vec F S1x384 .f32) (ix2 (0 : Fin 1) q) = m ((c : Thread nD τ).loc main_arg9) (ix2 q (0 : Fin 1)) := by
  obtain ⟨_, _, _, _, _, _, _, _, _, ⟨e0, e1⟩, _⟩ := idx_facts t
  show V m c main_v4 (((cfg0.win 9).blk t).view.emb (ix2 (0 : Fin 1) q)) = _
  have he : ((cfg0.win 9).blk t).view.emb (ix2 (0 : Fin 1) q) = (ix2 (0 : Fin 1) q : S1x384.Idx) := by
    funext a; apply Fin.ext
    match a with
    | ⟨0, _⟩ => show win0_9.index t (0 : Fin 2) * 1 + 1 * 0 = 0; omega
    | ⟨1, _⟩ => show win0_9.index t (1 : Fin 2) * 384 + 1 * q.val = q.val; omega
  rw [he, V_main_v4]
  exact transpose_ix2_apply _ _ (0 : Fin 1) q

theorem blk10_apply (c : Dev nD) (t : Fin cfg0.N) :
    (iblk m c 10 t : Vec F S1x1 .f32) (ix2 (0 : Fin 1) (0 : Fin 1)) = m ((c : Thread nD τ).loc main_arg10) (ix1 (0 : Fin 1)) := by
  obtain ⟨_, _, _, _, _, _, _, _, _, _, e0, e1⟩ := idx_facts t
  show V m c main_v5 (((cfg0.win 10).blk t).view.emb (ix2 (0 : Fin 1) (0 : Fin 1))) = _
  have he : ((cfg0.win 10).blk t).view.emb (ix2 (0 : Fin 1) (0 : Fin 1)) = (ix2 (0 : Fin 1) (0 : Fin 1) : S1x1.Idx) := by
    funext a; apply Fin.ext
    match a with
    | ⟨0, _⟩ => show win0_10.index t (0 : Fin 2) * 1 + 1 * 0 = 0; omega
    | ⟨1, _⟩ => show win0_10.index t (1 : Fin 2) * 1 + 1 * 0 = 0; omega
  rw [he, V_main_v5]
  exact shapeCast_a_1a_apply _ _ (0 : Fin 1) (0 : Fin 1)

end Cert.KernelIdeal.KBlocks

end
-- ==== Proof.KFinal.lean ====
/-
  From blocks to arrays.

  Grid point `t` handles batch `t / 4` and tokens `(t % 4)·2048 + s`, `s < 2048`. Read index by index, the
  logits block it stores is the specification's logit of expert `e` at that token (the products of the second
  and third layers commute into the specification's order; the packed first layer's router columns are the
  first head's hidden features), and the values block likewise through the value head's columns. So what each
  point writes back is its block of ONE function of the argument arrays — the logits transposed,
  `[4, 8, 8192]`, and the values transposed, `[4, 1, 8192]` —, and the sixteen blocks cover each array.
-/
import proofs.«143033_g7164005449791_retrytranche1_166_45_alg».proof.Proof.KInduct
import proofs.«143033_g7164005449791_retrytranche1_166_45_alg».proof.Proof.KPay
import proofs.«143033_g7164005449791_retrytranche1_166_45_alg».proof.Proof.KBlocks
import proofs.«143033_g7164005449791_retrytranche1_166_45_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KFinal

open Cert.KernelIdeal Cert.KernelIdeal.Gen Cert.KernelIdeal.KPieces Cert.KernelIdeal.KInduct
open Cert.KernelIdeal.KPay Cert.KernelIdeal.KBlocks Idealize.ShloMosaic.ValueIdx
open Cert.RouterSpec (z colL colR hid hid2 logitAt valueAt)

variable (m : (ℓ : Loc nD τ sig) → Buf (Elt Ideal) ℓ)

/-- The batch grid point `t` works on. -/
def pOf (t : Fin cfg0.N) : Fin 4 := ⟨t.val / 4, by have := t.isLt; have hN : cfg0.N = 16 := N_0; omega⟩

/-- The token of its batch that row `s` of point `t`'s tile is. -/
def rOf (t : Fin cfg0.N) (s : Fin 2048) : Fin 8192 := ⟨(t.val % 4) * 2048 + s.val, by have := s.isLt; omega⟩

/-! ## The tile's arithmetic is the specification's -/

/-- The packed first layer's router columns are the router head's hidden features. -/
theorem hidL (c : Dev nD) (t : Fin cfg0.N) (s : Fin 2048) (q : Fin 384) :
    k0_pay7 (F := Ideal) (iblk m c 0 t) (Wc m c) (Bc m c) (ix2 s (colL q))
      = hid (m ((c : Thread nD τ).loc main_arg0)) (m ((c : Thread nD τ).loc main_arg1)) (m ((c : Thread nD τ).loc main_arg2)) (pOf t) (rOf t s) q := by
  refine (pay7_apply (iblk m c 0 t) (Wc m c) (Bc m c) s (colL q)).trans ?_
  unfold hid
  refine congrArg (max · z) (congrArg₂ (· + ·) (Finset.sum_congr rfl fun k _ => ?_) ?_)
  · rw [blk0_apply m c t s k (pOf t) (rOf t s) rfl rfl]
    unfold Wc
    rw [wcat_colL (iblk m c 1 t0_0) (iblk m c 3 t0_0) k q, blk1_apply m c t0_0 k q]
  · unfold Bc
    rw [bcat_colL (iblk m c 2 t0_0) (iblk m c 4 t0_0) q, blk2_apply m c t0_0 q]

/-- The packed first layer's value columns are the value head's hidden features. -/
theorem hidR (c : Dev nD) (t : Fin cfg0.N) (s : Fin 2048) (q : Fin 384) :
    k0_pay7 (F := Ideal) (iblk m c 0 t) (Wc m c) (Bc m c) (ix2 s (colR q))
      = hid (m ((c : Thread nD τ).loc main_arg0)) (m ((c : Thread nD τ).loc main_arg7)) (m ((c : Thread nD τ).loc main_arg8)) (pOf t) (rOf t s) q := by
  refine (pay7_apply (iblk m c 0 t) (Wc m c) (Bc m c) s (colR q)).trans ?_
  unfold hid
  refine congrArg (max · z) (congrArg₂ (· + ·) (Finset.sum_congr rfl fun k _ => ?_) ?_)
  · rw [blk0_apply m c t s k (pOf t) (rOf t s) rfl rfl]
    unfold Wc
    rw [wcat_colR (iblk m c 1 t0_0) (iblk m c 3 t0_0) k q, blk3_apply m c t0_0 k q]
  · unfold Bc
    rw [bcat_colR (iblk m c 2 t0_0) (iblk m c 4 t0_0) q, blk4_apply m c t0_0 q]

/-- The stored logits block, index by index, is the specification's logit. -/
theorem logits_point (c : Dev nD) (t : Fin cfg0.N) (u : Fin 1) (e : Fin 8) (s : Fin 2048) :
    logitsBlk m c t (ix3 u e s) = logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (pOf t) (rOf t s) e := by
  unfold logitsBlk
  refine (pay1_apply (iblk m c 0 t) (Wc m c) (Bc m c) (iblk m c 5 t) (iblk m c 6 t) (iblk m c 7 t) (iblk m c 8 t) u e s).trans ?_
  unfold logitAt hid2
  refine congrArg₂ (· + ·) (Finset.sum_congr rfl fun k _ => ?_) (blk8_apply m c t e)
  rw [blk7_apply m c t e k, mul_comm]
  refine congrArg (· * _) (congrArg (max · z) (congrArg₂ (· + ·) (Finset.sum_congr rfl fun q _ => ?_) (blk6_apply m c t k)))
  rw [hidL m c t s q, blk5_apply m c t k q]

/-- The stored values block, index by index, is the specification's value. -/
theorem values_point (c : Dev nD) (t : Fin cfg0.N) (u v : Fin 1) (s : Fin 2048) :
    valuesBlk m c t (ix3 u v s) = valueAt (m ((c : Thread nD τ).loc main_arg0)) (m ((c : Thread nD τ).loc main_arg7)) (m ((c : Thread nD τ).loc main_arg8)) (m ((c : Thread nD τ).loc main_arg9)) (m ((c : Thread nD τ).loc main_arg10)) (pOf t) (rOf t s) v := by
  obtain rfl : v = 0 := Subsingleton.elim v 0
  unfold valuesBlk
  refine (pay2_apply (iblk m c 0 t) (Wc m c) (Bc m c) (iblk m c 9 t) (iblk m c 10 t) u 0 s).trans ?_
  unfold valueAt
  refine congrArg₂ (· + ·) (Finset.sum_congr rfl fun q _ => ?_) (blk10_apply m c t)
  rw [blk9_apply m c t q, hidR m c t s q, mul_comm]

/-! ## The arrays the region leaves -/

/-- The transposed logits array: expert by token within a batch. -/
def G11 (c : Dev nD) : Buf (Elt Ideal) ((c : Thread nD τ).loc main_v6_0) := fun i =>
  logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 2) (i 1)

/-- The transposed values array. -/
def G12 (c : Dev nD) : Buf (Elt Ideal) ((c : Thread nD τ).loc main_v6_1) := fun i =>
  valueAt (m ((c : Thread nD τ).loc main_arg0)) (m ((c : Thread nD τ).loc main_arg7)) (m ((c : Thread nD τ).loc main_arg8)) (m ((c : Thread nD τ).loc main_arg9)) (m ((c : Thread nD τ).loc main_arg10)) (i 0) (i 2) (i 1)

/-- The printed index maps of the two output windows, decided over the grid. -/
theorem idx_facts : ∀ t : Fin cfg0.N, win0_11.index t (0 : Fin 3) = t.val / 4 ∧ win0_11.index t (1 : Fin 3) = 0
    ∧ win0_11.index t (2 : Fin 3) = t.val % 4 ∧ win0_12.index t (0 : Fin 3) = t.val / 4 ∧ win0_12.index t (1 : Fin 3) = 0
    ∧ win0_12.index t (2 : Fin 3) = t.val % 4 :=
  (by decide +kernel : ∀ t : Fin grid0.N, _)

/-- Where point `t`'s logits block sits in the array. -/
theorem emb11 (t : Fin cfg0.N) (u : Fin 1) (e : Fin 8) (s : Fin 2048) :
    ((cfg0.win 11).blk t).view.emb (ix3 u e s) = ix3 (pOf t) e (rOf t s) := by
  obtain ⟨e0, e1, e2, -, -, -⟩ := idx_facts t
  funext a; apply Fin.ext
  match a with
  | ⟨0, _⟩ => show win0_11.index t (0 : Fin 3) * 1 + 1 * u.val = t.val / 4; have := u.isLt; omega
  | ⟨1, _⟩ => show win0_11.index t (1 : Fin 3) * 8 + 1 * e.val = e.val; omega
  | ⟨2, _⟩ => show win0_11.index t (2 : Fin 3) * 2048 + 1 * s.val = (t.val % 4) * 2048 + s.val; omega

/-- Where point `t`'s values block sits in the array. -/
theorem emb12 (t : Fin cfg0.N) (u v : Fin 1) (s : Fin 2048) :
    ((cfg0.win 12).blk t).view.emb (ix3 u v s) = ix3 (pOf t) v (rOf t s) := by
  obtain ⟨-, -, -, e0, e1, e2⟩ := idx_facts t
  funext a; apply Fin.ext
  match a with
  | ⟨0, _⟩ => show win0_12.index t (0 : Fin 3) * 1 + 1 * u.val = t.val / 4; have := u.isLt; omega
  | ⟨1, _⟩ => show win0_12.index t (1 : Fin 3) * 1 + 1 * v.val = v.val; omega
  | ⟨2, _⟩ => show win0_12.index t (2 : Fin 3) * 2048 + 1 * s.val = (t.val % 4) * 2048 + s.val; omega

/-- What point `t` writes back to the logits array is its block of `G11`. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11, after_logits]
  funext j
  obtain ⟨u, e, s, rfl⟩ : ∃ (u : Fin 1) (e : Fin 8) (s : Fin 2048), j = ix3 u e s := ⟨j 0, j 1, j 2, eq_ix3 j⟩
  show logitsBlk m c t (ix3 u e s) = G11 m c (((cfg0.win 11).blk t).view.emb (ix3 u e s))
  rw [emb11, logits_point]
  rfl

/-- What point `t` writes back to the values array is its block of `G12`. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12, after_values]
  funext j
  obtain ⟨u, v, s, rfl⟩ : ∃ (u : Fin 1) (v : Fin 1) (s : Fin 2048), j = ix3 u v s := ⟨j 0, j 1, j 2, eq_ix3 j⟩
  show valuesBlk m c t (ix3 u v s) = G12 m c (((cfg0.win 12).blk t).view.emb (ix3 u v s))
  rw [emb12, values_point]
  rfl

/-- An index of the logits array is in point `t`'s block iff each coordinate is in the block's range. -/
theorem mem_blk11 (t : Fin cfg0.N) (i : S4x8x8192.Idx) :
    i ∈ ((cfg0.win 11).blk t).view.set ↔ ∀ a : Fin 3, win0_11.index t a * S1x8x2048.size a ≤ (i a).val ∧ (i a).val < win0_11.index t a * S1x8x2048.size a + S1x8x2048.size a := by
  show i ∈ ((View.whole main_v6_0).slice (win0_11.rect t)).set ↔ _
  rw [View.set_slice_whole, Rect.mem_set_unit]
  exact Iff.rfl

theorem mem_blk12 (t : Fin cfg0.N) (i : S4x1x8192.Idx) :
    i ∈ ((cfg0.win 12).blk t).view.set ↔ ∀ a : Fin 3, win0_12.index t a * S1x1x2048.size a ≤ (i a).val ∧ (i a).val < win0_12.index t a * S1x1x2048.size a + S1x1x2048.size a := by
  show i ∈ ((View.whole main_v6_1).slice (win0_12.rect t)).set ↔ _
  rw [View.set_slice_whole, Rect.mem_set_unit]
  exact Iff.rfl

/-- Every index of the logits array is in the block of the point of its batch and its quarter of the tokens. -/
theorem cover11 (i : S4x8x8192.Idx) :
    ∃ t : Fin cfg0.N, (cfg0.win 11).flush t = true ∧ i ∈ ((cfg0.win 11).blk t).view.set := by
  have hN : cfg0.N = 16 := N_0
  have h0 : (i 0).val < 4 := (i 0).isLt
  have h1 : (i 1).val < 8 := (i 1).isLt
  have h2 : (i 2).val < 8192 := (i 2).isLt
  obtain ⟨t, ht⟩ : ∃ t : Fin cfg0.N, t.val = 4 * (i 0).val + (i 2).val / 2048 := ⟨⟨4 * (i 0).val + (i 2).val / 2048, by omega⟩, rfl⟩
  obtain ⟨e0, e1, e2, -, -, -⟩ := idx_facts t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 8 ≤ (i 1).val ∧ (i 1).val < win0_11.index t (1 : Fin 3) * 8 + 8; omega
  | ⟨2, _⟩ => show win0_11.index t (2 : Fin 3) * 2048 ≤ (i 2).val ∧ (i 2).val < win0_11.index t (2 : Fin 3) * 2048 + 2048; omega

theorem cover12 (i : S4x1x8192.Idx) :
    ∃ t : Fin cfg0.N, (cfg0.win 12).flush t = true ∧ i ∈ ((cfg0.win 12).blk t).view.set := by
  have hN : cfg0.N = 16 := N_0
  have h0 : (i 0).val < 4 := (i 0).isLt
  have h1 : (i 1).val < 1 := (i 1).isLt
  have h2 : (i 2).val < 8192 := (i 2).isLt
  obtain ⟨t, ht⟩ : ∃ t : Fin cfg0.N, t.val = 4 * (i 0).val + (i 2).val / 2048 := ⟨⟨4 * (i 0).val + (i 2).val / 2048, by omega⟩, rfl⟩
  obtain ⟨-, -, -, e0, e1, e2⟩ := idx_facts t
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1 ≤ (i 1).val ∧ (i 1).val < win0_12.index t (1 : Fin 3) * 1 + 1; omega
  | ⟨2, _⟩ => show win0_12.index t (2 : Fin 3) * 2048 ≤ (i 2).val ∧ (i 2).val < win0_12.index t (2 : Fin 3) * 2048 + 2048; omega

/-- The logits array after the region. -/
theorem final11 (c : Dev nD) : (dats m 0 c).arrAt 11 cfg0.N = G11 m c :=
  (dats m 0 c).arrAt_eq_of_cover 11 (G11 m c) (fun t _ => flushed11_eq m c t) cover11

/-- The values array after the region. -/
theorem final12 (c : Dev nD) : (dats m 0 c).arrAt 12 cfg0.N = G12 m c :=
  (dats m 0 c).arrAt_eq_of_cover 12 (G12 m c) (fun t _ => flushed12_eq m c t) cover12

end Cert.KernelIdeal.KFinal

end
-- ==== Proof.KRun.lean ====
/-
  The idealized kernel's run, read.

  After the region the program transposes the two arrays back: the logits `[4, 8, 8192] → [4, 8192, 8]` and
  the values `[4, 1, 8192] → [4, 8192, 1]`. A transposed stack of matrices read at `(p, s, e)` is the operand
  at `(p, e, s)`, so the two results are the specification's logits and values of the argument arrays; the
  arguments themselves end as they were launched.
-/
import proofs.«143033_g7164005449791_retrytranche1_166_45_alg».proof.Proof.KFinal
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.KFinal Idealize.ShloMosaic.ValueIdx

variable (m : (ℓ : Loc nD τ sig) → Buf (Elt Ideal) ℓ) (ρ : Dev nD → PrngReg)

/-- The region's logits array, as the lines after the region find it. -/
theorem arr11 (c : Dev nD) :
    Pipeline.withArrays spec0 c (V0 m c) (fun w => (dats m 0 c).arrAt w cfg0.N) (Proc.devRef .tc main_v6_0) = G11 m c :=
  (Pipeline.withArrays_arr spec0 launch0.win.arr_inj c _ _ 11).trans (final11 m c)

/-- The region's values array, as the lines after the region find it. -/
theorem arr12 (c : Dev nD) :
    Pipeline.withArrays spec0 c (V0 m c) (fun w => (dats m 0 c).arrAt w cfg0.N) (Proc.devRef .tc main_v6_1) = G12 m c :=
  (Pipeline.withArrays_arr spec0 launch0.win.arr_inj c _ _ 12).trans (final12 m c)

/-- The first result: the logits, transposed back to token by expert. -/
theorem res_logits (c : Dev nD) :
    Pipeline.afterTail₀ cfgs (dats m) 0 (V0 m) [hostOps1] c main_v7
      = Cert.RouterSpec.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v7) = _
  after_results
  refine (congrArg (fun x => transpose S4x8192x8 [0, 2, 1] x transposes_S4x8x8192_S4x8192x8_0_2_1) (arr11 m c)).trans ?_
  funext i
  obtain ⟨p, s, e, rfl⟩ : ∃ (p : Fin 4) (s : Fin 8192) (e : Fin 8), i = ix3 p s e := ⟨i 0, i 1, i 2, eq_ix3 i⟩
  refine (transpose_ix3_021_apply (G11 m c) transposes_S4x8x8192_S4x8192x8_0_2_1 p s e).trans ?_
  rfl

/-- The second result: the values, transposed back. -/
theorem res_values (c : Dev nD) :
    Pipeline.afterTail₀ cfgs (dats m) 0 (V0 m) [hostOps1] c main_v8
      = Cert.RouterSpec.values (m ((c : Thread nD τ).loc main_arg0)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v8) = _
  after_results
  refine (congrArg (fun x => transpose S4x8192x1 [0, 2, 1] x transposes_S4x1x8192_S4x8192x1_0_2_1) (arr12 m c)).trans ?_
  funext i
  obtain ⟨p, s, e, rfl⟩ : ∃ (p : Fin 4) (s : Fin 8192) (e : Fin 1), i = ix3 p s e := ⟨i 0, i 1, i 2, eq_ix3 i⟩
  refine (transpose_ix3_021_apply (G12 m c) transposes_S4x1x8192_S4x8192x1_0_2_1 p s e).trans ?_
  rfl

/-- Every weakly fair execution of the idealized kernel's program ends with the two results at the
    specification's logits and values of the launched arguments, and the arguments unchanged. -/
theorem run : θ_run defs (onTc (τ := τ) (main (F := Ideal))) ⟨m, fun _ => 0, ρ⟩ fun r => ∀ c : Dev nD,
      r.2.mem ((c.tc : Thread nD τ).loc main_v7) = Cert.RouterSpec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v8) = Cert.RouterSpec.values (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v7 (Pipeline.mem_restRefs_of main_v7 (by decide) (by decide))).trans (res_logits m c),
      ((h c).2 main_v8 (Pipeline.mem_restRefs_of main_v8 (by decide) (by decide))).trans (res_values m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 3).trans (((dats m 0 c).arrAt_in 3 rfl _).trans ((A_eq m c 3).trans (V_main_arg7 m c))),
      ((h c).1 4).trans (((dats m 0 c).arrAt_in 4 rfl _).trans ((A_eq m c 4).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KRun

end
-- ==== Proof.lean ====
/-
  The certificate of a fused router: a dense router head (768 → 384 → 192 → 8 logits, a rectifier after each of
  the first two layers) and a value head (768 → 384 → 1, a rectifier after the first layer) over 4 × 8192 tokens.

  The kernel reads each tile of 2048 tokens once. It packs the two heads' first-layer weights side by side into
  one 768 × 768 matrix at the grid's first point and keeps it across the points, runs the two first layers as
  one product, splits the result's columns between the heads, and writes both outputs transposed (the token
  axis last); the program transposes them back. The reference computes the two heads separately on the
  flattened tokens and divides its logits by a temperature of one.

  Over the extended reals both are the same function of the arguments, index by index: a change of float
  format is the identity, a product into a zero accumulator is the plain sum of products, the packed product's
  columns are the two heads' products, two of the kernel's products are taken in the other order
  (commutativity), and dividing by one changes nothing. No law that needs finiteness is used, so the
  precondition is never opened.

  The three frames are the generated ones (the reference's is its generated run with the results dropped); the
  idealization rewrote nothing, so its claim is trivial; the value claim pairs the kernel's run, read back
  through the generated frame (what each control case's stores leave, an induction over the grid points for the
  carried buffers, the sixteen blocks covering each output array, the two transposes after the region), with
  the reference's generated run read one operation at a time.
-/
import proofs.«143033_g7164005449791_retrytranche1_166_45_alg».proof.Defs
import proofs.«143033_g7164005449791_retrytranche1_166_45_alg».proof.Proof.Gen.Kernel
import proofs.«143033_g7164005449791_retrytranche1_166_45_alg».proof.Proof.Gen.Kernel.Skeleton
import proofs.«143033_g7164005449791_retrytranche1_166_45_alg».proof.Proof.Gen.Kernel.Launch
import proofs.«143033_g7164005449791_retrytranche1_166_45_alg».proof.Proof.Gen.Kernel.Points
import proofs.«143033_g7164005449791_retrytranche1_166_45_alg».proof.Proof.Gen.Kernel.Frame
import proofs.«143033_g7164005449791_retrytranche1_166_45_alg».proof.Proof.Gen.KernelIdeal
import proofs.«143033_g7164005449791_retrytranche1_166_45_alg».proof.Proof.Gen.KernelIdeal.Skeleton
import proofs.«143033_g7164005449791_retrytranche1_166_45_alg».proof.Proof.Gen.KernelIdeal.Launch
import proofs.«143033_g7164005449791_retrytranche1_166_45_alg».proof.Proof.Gen.KernelIdeal.Points
import proofs.«143033_g7164005449791_retrytranche1_166_45_alg».proof.Proof.Gen.KernelIdeal.Frame
import proofs.«143033_g7164005449791_retrytranche1_166_45_alg».proof.Proof.Gen.ReferenceIdeal
import proofs.«143033_g7164005449791_retrytranche1_166_45_alg».proof.Proof.Gen.ReferenceIdeal.Run
import proofs.«143033_g7164005449791_retrytranche1_166_45_alg».proof.Proof.Gen.ReferenceIdeal.Read
import proofs.«143033_g7164005449791_retrytranche1_166_45_alg».proof.Proof.Gen.Pre_finite_inputs
import proofs.«143033_g7164005449791_retrytranche1_166_45_alg».proof.Proof.Spec
import proofs.«143033_g7164005449791_retrytranche1_166_45_alg».proof.Proof.RefIsSpec
import proofs.«143033_g7164005449791_retrytranche1_166_45_alg».proof.Proof.KRun
import Idealize.ShloMosaic.Adequacy
import Idealize.ShloMosaic.Init

noncomputable section

namespace Cert.Proof

open Idealize.ShloMosaic Idealize.SL.Sem

/-- The word-level kernel runs, faults nowhere and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both idealized programs end with the specification's logits and values of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KRun.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v29_eq, Cert.ReferenceIdeal.RefSpec.logits_eq,
      (hagree c).1, (hagree c).2.1, (hagree c).2.2.1, (hagree c).2.2.2.1, (hagree c).2.2.2.2.1,
      (hagree c).2.2.2.2.2.1, (hagree c).2.2.2.2.2.2.1]
  · refine (h c).2.1.trans ?_
    rw [Cert.ReferenceIdeal.Read.val_main_v30_eq, Cert.ReferenceIdeal.RefSpec.values_eq,
      (hagree c).1, (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
